-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) (main_arg1 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S4096x256 : Shape := ⟨2, ![4096, 256]⟩
abbrev S4096x1 : Shape := ⟨2, ![4096, 1]⟩
abbrev S1024x256 : Shape := ⟨2, ![1024, 256]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩
abbrev S4096 : Shape := ⟨1, ![4096]⟩

abbrev nBuf : Space → Nat
  | .hbm => 41
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048, .f32⟩
  | .hbm, ⟨25, _⟩ => ⟨S4096x256, .f32⟩
  | .hbm, ⟨26, _⟩ => ⟨S4096x256, .bf16⟩
  | .hbm, ⟨27, _⟩ => ⟨S4096x1, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  concatenates_S2048x256_S2048x256_S4096x256_d0 : Shape.Concatenates [S2048x256, S2048x256] S4096x256 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S4096x1_S4096 : S4096x1.ShapeCasts S4096
  concatenates_S2048_S2048_S4096_d0 : Shape.Concatenates [S2048, S2048] S4096 0
  bcast_S_S4096 : S_.BroadcastsInDim S4096 (![] : Fin 0 → Fin S4096.rank)
  reducesTo_S4096_S_d0 : S4096.ReducesTo [0] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .bf16 = 32 ∨ (Rect.block (s := S4096x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .bf16 = 32 ∨ (Rect.block (s := S4096x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v19) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S4096x256 : Shape := ⟨2, ![4096, 256]⟩
abbrev S4096x4096 : Shape := ⟨2, ![4096, 4096]⟩
abbrev S2048x2 : Shape := ⟨2, ![2048, 2]⟩
abbrev S4096 : Shape := ⟨1, ![4096]⟩

abbrev nBuf : Space → Nat
  | .hbm => 99
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x256, .f32⟩
  | .hbm, ⟨21, _⟩ => ⟨S2048x256, .f32⟩
  | .hbm, ⟨22, _⟩ => ⟨S4096x256, .f32⟩
  | .hbm, ⟨23, _⟩ => ⟨S4096x4096, .f32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048x1, .i32⟩
  | .hbm, ⟨44, _⟩ => ⟨S2048x1, .i32⟩
  | .hbm, ⟨45, _⟩ => ⟨S2048x2, .i32⟩
  | .hbm, ⟨46, _⟩ => ⟨S2048, .f32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S2048x1, .i32⟩
  | .hbm, ⟨67, _⟩ => ⟨S2048x1, .i32⟩
  | .hbm, ⟨68, _⟩ => ⟨S2048x2, .i32⟩
  | .hbm, ⟨69, _⟩ => ⟨S2048, .f32⟩
  | .hbm, ⟨70, _⟩ => ⟨S4096, .f32⟩
  | .hbm, ⟨71, _⟩ => ⟨S4096x4096, .i32⟩
  | .hbm, ⟨72, _⟩ => ⟨S4096x4096, .i32⟩
  | .hbm, ⟨73, _⟩ => ⟨S_, .i32⟩
  | .hbm, ⟨74, _⟩ => ⟨S4096x4096, .i32⟩
  | .hbm, ⟨75, _⟩ => ⟨S4096x4096, .i32⟩
  | .hbm, ⟨76, _⟩ => ⟨S4096x4096, .i1⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S4096, .f32⟩
  | .hbm, ⟨85, _⟩ => ⟨S_, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096, .f32⟩
  | .hbm, ⟨92, _⟩ => ⟨S4096, .f32⟩
  | .hbm, ⟨93, _⟩ => ⟨S4096, .f32⟩
  | .hbm, ⟨94, _⟩ => ⟨S4096, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_c : Ref sig .tc := ⟨.hbm, 26, rfl⟩
abbrev main_call0_v2 : Ref sig .tc := ⟨.hbm, 27, rfl⟩
abbrev main_call0_v3 : Ref sig .tc := ⟨.hbm, 28, rfl⟩
abbrev main_call0_c_0 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c_2 : Ref sig .tc := ⟨.hbm, 36, rfl⟩
abbrev main_call0_v9 : Ref sig .tc := ⟨.hbm, 37, rfl⟩
abbrev main_call0_v10 : Ref sig .tc := ⟨.hbm, 38, rfl⟩
abbrev main_call0_c_3 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_v18 : Ref sig .tc := ⟨.hbm, 46, rfl⟩
abbrev main_call1_v0 : Ref sig .tc := ⟨.hbm, 47, rfl⟩
abbrev main_call1_v1 : Ref sig .tc := ⟨.hbm, 48, rfl⟩
abbrev main_call1_c : Ref sig .tc := ⟨.hbm, 49, rfl⟩
abbrev main_call1_v2 : Ref sig .tc := ⟨.hbm, 50, rfl⟩
abbrev main_call1_v3 : Ref sig .tc := ⟨.hbm, 51, rfl⟩
abbrev main_call1_c_0 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c_2 : Ref sig .tc := ⟨.hbm, 59, rfl⟩
abbrev main_call1_v9 : Ref sig .tc := ⟨.hbm, 60, rfl⟩
abbrev main_call1_v10 : Ref sig .tc := ⟨.hbm, 61, rfl⟩
abbrev main_call1_c_3 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_v15 : Ref sig .tc := ⟨.hbm, 67, rfl⟩
abbrev main_call1_v16 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_c : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst_3 : Ref sig .tc := ⟨.hbm, 78, rfl⟩
abbrev main_v27 : Ref sig .tc := ⟨.hbm, 79, rfl⟩
abbrev main_v28 : Ref sig .tc := ⟨.hbm, 80, rfl⟩
abbrev main_cst_4 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_5 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_cst_6 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_7 : Ref sig .tc := ⟨.hbm, 95, rfl⟩
abbrev main_v40 : Ref sig .tc := ⟨.hbm, 96, rfl⟩
abbrev main_cst_8 : Ref sig .tc := ⟨.hbm, 97, rfl⟩
abbrev main_v41 : Ref sig .tc := ⟨.hbm, 98, rfl⟩

abbrev nD : Nat := 1
abbrev τ : Topo := Topo.v7x

variable {F : FTy → Type} [FloatOps F]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  concatenates_S2048x256_S2048x256_S4096x256_d0 : Shape.Concatenates [S2048x256, S2048x256] S4096x256 0
  bcast_S_S2048 : S_.BroadcastsInDim S2048 (![] : Fin 0 → Fin S2048.rank)
  concatenates_S2048x1_S2048x1_S2048x2_d1 : Shape.Concatenates [S2048x1, S2048x1] S2048x2 1
  concatenates_S2048_S2048_S4096_d0 : Shape.Concatenates [S2048, S2048] S4096 0
  bcast_S_S4096x4096 : S_.BroadcastsInDim S4096x4096 (![] : Fin 0 → Fin S4096x4096.rank)
  bcast_S_S4096 : S_.BroadcastsInDim S4096 (![] : Fin 0 → Fin S4096.rank)
  reducesTo_S4096x4096_S4096_d1 : S4096x4096.ReducesTo [1] S4096
  reducesTo_S4096_S_d0 : S4096.ReducesTo [0] S_
  dot_S4096x256_S4096x256_S4096x4096_1_1_0_0_n_n_wf : DotDims.WF S4096x256 S4096x256 S4096x4096 [1] [1] [0] [0] [] []
  gather_S4096x4096_S2048x2_S2048_n_01_n_n_01_1_11_wf : GatherDims.WF S4096x4096 S2048x2 S2048 [] [0, 1] [] [0, 1] [] 1 ![1, 1]

variable [Facts₀]

def dot_S4096x256_S4096x256_S4096x4096_1_1_0_0_n_n : DotDims S4096x256 S4096x256 S4096x4096 where
  lhsContracting := [1]
  rhsContracting := [1]
  lhsNonContracting := [0]
  rhsNonContracting := [0]
  lhsBatch := []
  rhsBatch := []
  wf := dot_S4096x256_S4096x256_S4096x4096_1_1_0_0_n_n_wf
def gather_S4096x4096_S2048x2_S2048_n_01_n_n_01_1_11 : GatherDims S4096x4096 S2048x2 S2048 where
  offsetDims := []
  collapsedSliceDims := [0, 1]
  operandBatchingDims := []
  startIndicesBatchingDims := []
  startIndexMap := [0, 1]
  indexVectorDim := 1
  sliceSizes := ![1, 1]
  wf := gather_S4096x4096_S2048x2_S2048_n_01_n_n_01_1_11_wf

class Facts : Prop extends Facts₀ where

variable [Facts]
-- ==== Proof.FrameKit.lean ====
/-
  What the frame of the denominator kernel is stated over: the contents of the core's buffers when the kernel's
  region is entered (after the host operations that normalise and stack the embeddings), @main as those operations,
  the region, and the operations after it; each window's block at a grid point; the body's two branch conditions in
  closed form over the sixteen grid points (point `t` is row tile `t / 4`, column tile `t % 4`: the accumulator is
  cleared at column tile 0 and copied out at column tile 3); where the output window is idle; and the staging and
  scratch memrefs the body is called with.
-/
import proofs.«138042_j24464133718914_1_alg».proof.Proof.Gen.KernelIdeal.Launch
import proofs.«138042_j24464133718914_1_alg».proof.Proof.Gen.KernelIdeal.Skeleton
import proofs.«138042_j24464133718914_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The operations after the region touch TensorCore buffers only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array the kernel's windows stage (the stacked rows, the denominators). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's staging buffer holds its block at every point, fetched there or not (the block index does not move
    while the column tile advances), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's staging buffer likewise (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first column tile": the condition under which the accumulator is cleared. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last column tile": the condition under which the accumulator is copied to the output block. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the body stores nothing into the output block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column tile it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The accumulator: a scoped buffer of the kernel's own. -/
abbrev scM0_0 : Memref sig .tc .vmem S1024x1 .f32 := Memref.whole cc0_scratch0
abbrev VS0_0 : View sig .tc .vmem S1024x1 .f32 := scM0_0.view

/-- The core's scoped buffers that are no staging buffer: the accumulator, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Frm

end
-- ==== Proof.RunA.lean ====
/-
  The body at a point of the FIRST column tile (the accumulator is cleared, then the tile's row sums are added; nothing is
  stored into the output block): on whole memrefs — the row and column blocks at their contents, the output's buffer at
  contents handed back untouched, the accumulator at anything — it runs to the continuation holding the blocks as they
  were and the accumulator with the pieces its stores wrote, which the run finds.
-/
import proofs.«138042_j24464133718914_1_alg».proof.Proof.FrameKit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x256 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frm

end
-- ==== Proof.RunB.lean ====
/-
  The body at a point of a MIDDLE column tile (the tile's row sums are added to the accumulator; nothing else): the
  accumulator comes in at the contents the point before left.
-/
import proofs.«138042_j24464133718914_1_alg».proof.Proof.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x256 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frm

end
-- ==== Proof.RunC.lean ====
/-
  The body at a point of the LAST column tile (the tile's row sums are added to the accumulator, which is then copied
  into the output block): the accumulator comes in at the contents the point before left, the output's buffer at
  anything, and both leave with the pieces the stores wrote.
-/
import proofs.«138042_j24464133718914_1_alg».proof.Proof.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frm

end
-- ==== Proof.LibSharedLaunch.lean ====
/-
  A pipelined kernel whose input windows may SHARE an array — one array handed to the kernel through several
  `in_specs`, read at different blocks — inside an @main that runs host operations before the kernel's region and
  after it.

  The launch rule for distinct arrays holds every array at the full share.  When two windows stage one array the
  full share of the buffer behind it is dealt among them, and dealing it is the certificate's business: it says how
  the distinct buffers, each whole at the full share, make the proof data's arrays when the region is entered
  (`hsplit`), and that after the last point the proof data's arrays and the distinct buffers at the exit contents
  `Vx` are the same resource (`hmerge`).  Between the two the host operations after the region run within the
  core's unscoped buffers exactly as the ones before it do, writing no array; they leave every bypassing buffer at
  their composed value from the exit contents.  The kernel keeps no semaphore of its own and its invariant is
  entered from, and returns to, the core's scoped buffers that are no staging buffer, each at some contents.
  Generic in the program, the grid and the element values.
-/
import Idealize.ShloMosaic.Lib.Pipeline.FrameSuffix

noncomputable section

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

set_option backward.isDefEq.respectTransparency.types false in
/-- THE RUN AROUND THE REGION when windows may share arrays.  Every weakly fair execution terminates; each window's
    array ends at the proof data's `arrAt … N`, and every unscoped buffer that is no window's array at the value the
    operations after the region compute from the exit contents `Vx`. -/
theorem θ_run_shared_around
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Vx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hmerge : ∀ c, ((dats p c).arrays ((dats p c).arrAt · (cfg).N) : sProp 𝕄) ⊣⊢ arrBufs (cfg).spec c (fun b => Vx c (Proc.devRef .tc b)))
    (hrest : ∀ c, ∀ b ∈ restRefs sig (cfg).spec, Vx c (Proc.devRef .tc b) = V₀ c (Proc.devRef .tc b))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (Vx c) (Proc.devRef .tc b)) := by
  classical
  -- the exit contents' arrays are untouched by the operations after the region
  have harrx (c : Dev nD) : (arrBufs (cfg).spec c (fun b => StableHlo.after opss.flatten (Vx c) (Proc.devRef .tc b)) : sProp 𝕄)
      = arrBufs (cfg).spec c (fun b => Vx c (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hrestx (c : Dev nD) : (unscopedRest (cfg).spec c (fun b => Vx c (Proc.devRef .tc b)) : sProp 𝕄)
      = unscopedRest (cfg).spec c (fun b => V₀ c (Proc.devRef .tc b)) := by
    unfold unscopedRest
    exact bigSep_congr fun b hb => by dsimp only; rw [hrest c b hb]
  exact θ_run_region_noSem_pf_tail (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (u₀ := initOf (cells cfgs hinj) (launchToks cfgs hinj))
    (hu₀ := Entails.rfl)
    (V := fun c b => V₀ c (Proc.devRef .tc b)) (hmain := hmain)
    (hsplit := hsplit)
    (hpf := fun _ k => k.elim0)
    (X := fun _ => iprop(emp))
    (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Vx c) (Proc.devRef .tc b)))
    (hX := fun c => by
      rw [unscopedRestP_none]
      iintro H; isplitr; · iempintro
      iexact H)
    (hin := fun c => by
      refine Entails.trans ?_ (hin c)
      change iprop(emp ∗ prefHeld _ c _ _ ∗ scopedRest (cfg).spec c) ⊢ (scopedRest (cfg).spec c : sProp 𝕄)
      iintro ⟨-, -, H⟩; iexact H)
    (hout := fun c => by
      refine Entails.trans (hout c) ?_
      change (scopedRest (cfg).spec c : sProp 𝕄) ⊢ iprop(emp ∗ scopedRest (cfg).spec c)
      iintro H; isplitr; · iempintro
      iexact H)
    (htail := fun c Q' => by
      have hheld (W : Valuation τ sig Val) : (StableHlo.held (c.tc : Thread nD τ) (ucRefs τ sig) W : sProp 𝕄)
          = iprop(arrBufs (cfg).spec c (fun b => W (Proc.devRef .tc b)) ∗ unscopedRest (cfg).spec c (fun b => W (Proc.devRef .tc b))) := by
        rw [← unscopedBufs_held (Ix := Unit) (Name := ℕ) (U := UR sig nD τ) (Lvl := ℕ) c W]
        exact unscopedBufs_split₀ cfgs p hw.arr_unscoped c _
      change iprop((iprop((dats p c).arrays ((dats p c).arrAt · (cfg).N) ∗ unscopedRest (cfg).spec c (fun b => StableHlo.after opss.flatten (Vx c) (Proc.devRef .tc b))) -∗ Q' ⟨⟩)
          ∗ boundary (c.tc : Thread nD τ) ∗ (dats p c).arrays ((dats p c).arrAt · (cfg).N) ∗ unscopedRest (cfg).spec c (fun b => V₀ c (Proc.devRef .tc b)))
        ⊢ wp frame (wpE 𝔻 𝕍 (c.tc : Thread nD τ) none) Set.univ (chain (opss.map StableHlo.seq)) Q'
      rw [← List.append_nil (opss.map StableHlo.seq)]
      iintro ⟨Hk, Hb, Ha, Hz⟩
      ihave Ha' := (hmerge c).1 $$ Ha
      iapply (wp_seqs_then (fun q => (cfgs q).toPCfg (Val := Val)) defs₀ 𝒱₀ c (ucRefs τ sig) [] opss
        (fun ops ho op h => sub_ucRefs op (hsub ops ho op h)) hfresh (Vx c)) $$ [Hb Ha' Hz]
      · isplitl [Hb]; · iexact Hb
        rw [hheld, hrestx]
        isplitl [Ha']; · iexact Ha'
        iexact Hz
      iintro Hb
      rw [chain_nil, wp_pure, hheld, harrx]
      imodintro
      iapply Hk
      icases Hb with ⟨-, Ha, Hz⟩
      isplitl [Ha]
      · iapply (hmerge c).2; iexact Ha
      iexact Hz)
    (QY := fun c s => ∀ b ∈ restRefs sig (cfg).spec, s.mem ((c.tc : Thread nD τ).loc b) = StableHlo.after opss.flatten (Vx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Vx c) (Proc.devRef .tc b)) s')
      isplitl [HU] <;> iassumption)
    (hQ := fun s h c => ⟨(h c).1, (h c).2.2⟩)

end Idealize.ShloMosaic.Pipeline

end
-- ==== Proof.Frame.lean ====
/-
  The frame of the denominator kernel's program: what the accumulator and the output block hold point by point, the
  invariant between points, the proof data, the body obligation, and the run of @main.

  The sixteen grid points run row tile by row tile; within a row tile the four column tiles clear the accumulator,
  add each tile's row sums to it, and at the last copy it into the output block, which is then written back.  Both input
  windows stage blocks of ONE array, the stacked unit rows: the region is entered by dealing that array's full share
  to the two windows, half each, and left by joining the halves.
-/
import proofs.«138042_j24464133718914_1_alg».proof.Proof.RunC
import proofs.«138042_j24464133718914_1_alg».proof.Proof.LibSharedLaunch

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block and in the accumulator -/

/-- Away from the last column tile nothing is stored into the output block: a placeholder that nothing consults
    (the window is idle there and not written back). -/
def out0_A_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x256 .bf16) : Vec F S1024x1 .f32 :=
  VO0_2.read (Elt F) (VO0_2.writes (Elt F) VO0_2.junk (kernelRun0_A c i arg2 harg2 arg3 harg3 arg4 harg4 arg5 harg5 hc0 hc1 x0 x1).1)

/-- The stores into the accumulator cover it. -/
theorem scover0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x256 .bf16) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What the point leaves in the accumulator: its pieces read back. -/
def sout0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x256 .bf16) : Vec F S1024x1 .f32 :=
  VS0_0.read (Elt F) (VS0_0.writes (Elt F) VS0_0.junk (kernelRun0_A c i arg2 harg2 arg3 harg3 arg4 harg4 arg5 harg5 hc0 hc1 x0 x1).2.1)

/-- Away from the last column tile nothing is stored into the output block: a placeholder that nothing consults
    (the window is idle there and not written back). -/
def out0_B_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x256 .bf16) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- The stores into the accumulator cover it. -/
theorem scover0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x256 .bf16) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What the point leaves in the accumulator: its pieces read back. -/
def sout0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x256 .bf16) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- At the last column tile the stores into the output block cover it. -/
theorem cover0_C_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What the last column tile leaves in the output block: its pieces read back. -/
def out0_C_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- The stores into the accumulator cover it. -/
theorem scover0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What the point leaves in the accumulator: its pieces read back. -/
def sout0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- THE ACCUMULATION. What the output block's staging buffer and the accumulator hold after the body at position `n`:
    the case the closed forms select at `n`, run at the point's memrefs and blocks, the accumulator (outside the first
    column tile) coming in at what position `n - 1` left. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At a point of the first column tile. -/
theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a point of a middle column tile: over what the point before left. -/
theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last column tile: over what the point before left. -/
theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulator is the core's scoped rest, at anything; after position `n` it holds what that
    position left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body each input's buffer at its block and the output's at
    `outsAt0`; the stacked rows' buffer, which BOTH input windows stage, held by the row window at the left half of the
    full share and by the column window at the right half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => PosShare.left fullShare
    | ⟨1, _⟩ => PosShare.right fullShare
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in; the
    invariant hands the body the accumulator at what the point before left (at anything at the very first point) and
    takes it back at this point's contents; the output block is handed back untouched except at the last column tile,
    where it leaves with the accumulator's copy. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, scopedRest_acc]
        iintro ⟨HS0, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _)
        isplitl [Ho]; · iexact Ho
        isplitl [H0]; · iexact H0
        isplitl [H1]; · iexact H1
        iexists _; iexact H2
      · rw [PhiS_castSucc m c t, PhiS_pos m c _ _ hz]
        iintro ⟨HS0, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _)
        isplitl [Ho]; · iexact Ho
        isplitl [H0]; · iexact H0
        isplitl [H1]; · iexact H1
        iexists _; iexact H2
  · by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      have hz : t.val ≠ 0 := by omega
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  have hl : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ hl, scopedRest_acc]
  iintro HS0
  iexists _; iexact HS0

/-! ## The shared array: dealing its share, and the contents at the region's exit -/

/-- The buffers' contents when the region is left: the denominators' array at what the write-backs made of it,
    everything else as the region found it. -/
def Vx (c : Dev nD) : Valuation τ sig (Elt F) := fun b =>
  if h : b = Proc.devRef .tc main_v20 then
    cast (congrArg (fun b' : DevRef τ sig => b'.ty.Contents (Elt F)) h.symm) ((dats m 0 c).arrAt 2 cfg0.N)
  else V0 m c b

theorem Vx_v20 (c : Dev nD) : Vx m c (Proc.devRef .tc main_v20) = (dats m 0 c).arrAt 2 cfg0.N := by
  unfold Vx; rw [dif_pos rfl]; rfl

theorem Vx_of_ne (c : Dev nD) (b : Ref sig .tc) (hb : b ≠ main_v20) : Vx m c (Proc.devRef .tc b) = V0 m c (Proc.devRef .tc b) := by
  unfold Vx; rw [dif_neg]; intro e; exact hb (Proc.devRef_injective _ e)

/-- The two distinct buffers behind the three windows. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v19) ↦{fullShare} W main_v19) ∗ (((c.tc : Thread nD τ).loc main_v20) ↦{fullShare} W main_v20)) := by
  unfold Pipeline.arrBufs
  rw [bigSep_eq_bigSepL_of_eq [main_v19, main_v20] (by decide) (by decide)]
  rfl

/-- The three windows' arrays: the stacked rows twice, at the two halves of the full share, and the denominators. -/
theorem arrays_eq (c : Dev nD) (G : (w : Fin cfg0.W) → Buf (Elt F) ((cfg0.win w).arr.view.loc (c.tc : Thread nD τ))) :
    ((dats m 0 c).arrays G : sProp 𝕄)
      = iprop((((c.tc : Thread nD τ).loc main_v19) ↦{PosShare.left fullShare} G 0) ∗ (((c.tc : Thread nD τ).loc main_v19) ↦{PosShare.right fullShare} G 1)
          ∗ (((c.tc : Thread nD τ).loc main_v20) ↦{fullShare} G 2)) := by
  unfold Dat.arrays
  rw [bigSep_W0, (arr_whole0 0).set_eq_univ, (arr_whole0 2).set_eq_univ]
  rfl

/-- Entering the region: the stacked rows' full share is dealt to the two windows that stage them. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrBufs_eq, arrays_eq]
  iintro ⟨Ha, Hb⟩
  ihave Hs := (pointsTo_share (PosShare.mem_left_op_right fullShare)).1 $$ Ha
  icases Hs with ⟨Hl, Hr⟩
  isplitl [Hl]; · iexact Hl
  isplitl [Hr]; · iexact Hr
  iexact Hb

/-- Leaving it: the halves are joined again; the denominators' array is at its written contents. -/
theorem hmerge (c : Dev nD) : ((dats m 0 c).arrays ((dats m 0 c).arrAt · cfg0.N) : sProp 𝕄)
    ⊣⊢ Pipeline.arrBufs (Ix := Unit) (Name := ℕ) (U := UR sig nD τ) (Lvl := ℕ) spec0 c (fun b => Vx m c (Proc.devRef .tc b)) := by
  rw [arrBufs_eq, arrays_eq, Vx_v20, Vx_of_ne m c main_v19 (by decide),
    (dats m 0 c).arrAt_in 0 rfl, (dats m 0 c).arrAt_in 1 rfl]
  constructor
  · iintro ⟨Hl, Hr, Hb⟩
    isplitl [Hl Hr]
    · iapply (pointsTo_share (PosShare.mem_left_op_right fullShare)).2
      isplitl [Hl]; · iexact Hl
      iexact Hr
    iexact Hb
  · iintro ⟨Ha, Hb⟩
    ihave Hs := (pointsTo_share (PosShare.mem_left_op_right fullShare)).1 $$ Ha
    icases Hs with ⟨Hl, Hr⟩
    isplitl [Hl]; · iexact Hl
    isplitl [Hr]; · iexact Hr
    iexact Hb

/-- A buffer no window stages is untouched by the region. -/
theorem hrest (c : Dev nD) : ∀ b ∈ Pipeline.restRefs sig spec0, Vx m c (Proc.devRef .tc b) = V0 m c (Proc.devRef .tc b) := by
  intro b hb
  refine Vx_of_ne m c b fun e => ?_
  subst e
  exact (Finset.mem_sdiff.mp hb).2 (Finset.mem_image.mpr ⟨2, Finset.mem_univ _, rfl⟩)

/-! ## The run and the frame -/

set_option backward.isDefEq.respectTransparency.types false in
/-- Every weakly fair execution of @main terminates; each window's array ends at what the library computes from the proof
    data, every other unscoped buffer at what the operations after the region compute from the exit contents. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after ([hostOps1] : List (List (HloOp τ sig (Elt F)))).flatten (Vx m c) (Proc.devRef .tc b)) :=
  Pipeline.θ_run_shared_around cfgs (dats m) (0 : Fin 1) defs₀ Variants.none cellOf_inj winFacts₀0 block_pos0 arr_whole0 stage_whole0 m ρ main
    (hbody := fun c => (body_obligation m c).loose) (howed := fun _ _ => rfl)
    (V₀ := V0 m) (Vx := Vx m) (opss := [hostOps1]) (hsub := sfx_sub) (hfresh := sfx_fresh) (hkeep := sfx_keeps)
    (hmain := hmain m Variants.none) (hsplit := hsplit m) (hmerge := hmerge m) (hrest := hrest m) (hin := hin m) (hout := hout m)

/-- The first argument array is no window's array and no operation after the region writes it. -/
theorem V_main_arg0 (c : Dev nD) : V m c main_arg0 = m ((c : Thread nD τ).loc main_arg0) := rfl
theorem V_main_arg1 (c : Dev nD) : V m c main_arg1 = m ((c : Thread nD τ).loc main_arg1) := rfl

/-- No operation after the region writes an argument array. -/
theorem tail_keeps_args : ∀ op ∈ (([hostOps1] : List (List (HloOp τ sig (Elt F)))).flatten),
    Proc.devRef (τ := τ) .tc main_arg0 ∉ op.writes ∧ Proc.devRef (τ := τ) .tc main_arg1 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- THE FRAME: every weakly fair execution of @main terminates and both argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    refine ⟨((h c).2 main_arg0 (by decide)).trans ?_, ((h c).2 main_arg1 (by decide)).trans ?_⟩
    · rw [StableHlo.after_of_forall_not_mem _ _ fun op hop => (tail_keeps_args op hop).1, Vx_of_ne m c main_arg0 (by decide)]
      exact V_main_arg0 m c
    · rw [StableHlo.after_of_forall_not_mem _ _ fun op hop => (tail_keeps_args op hop).2, Vx_of_ne m c main_arg1 (by decide)]
      exact V_main_arg1 m c) (run_main m ρ)

end Cert.KernelIdeal.Frm

end
-- ==== Proof.BitsFrameKit.lean ====
/-
  What the frame of the denominator kernel is stated over: the contents of the core's buffers when the kernel's
  region is entered (after the host operations that normalise and stack the embeddings), @main as those operations,
  the region, and the operations after it; each window's block at a grid point; the body's two branch conditions in
  closed form over the sixteen grid points (point `t` is row tile `t / 4`, column tile `t % 4`: the accumulator is
  cleared at column tile 0 and copied out at column tile 3); where the output window is idle; and the staging and
  scratch memrefs the body is called with.
-/
import proofs.«138042_j24464133718914_1_alg».proof.Proof.Gen.Kernel.Launch
import proofs.«138042_j24464133718914_1_alg».proof.Proof.Gen.Kernel.Skeleton
import proofs.«138042_j24464133718914_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The operations after the region touch TensorCore buffers only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array the kernel's windows stage (the stacked rows, the denominators). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's staging buffer holds its block at every point, fetched there or not (the block index does not move
    while the column tile advances), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's staging buffer likewise (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first column tile": the condition under which the accumulator is cleared. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last column tile": the condition under which the accumulator is copied to the output block. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the body stores nothing into the output block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column tile it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The accumulator: a scoped buffer of the kernel's own. -/
abbrev scM0_0 : Memref sig .tc .vmem S1024x1 .f32 := Memref.whole cc0_scratch0
abbrev VS0_0 : View sig .tc .vmem S1024x1 .f32 := scM0_0.view

/-- The core's scoped buffers that are no staging buffer: the accumulator, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Frm

end
-- ==== Proof.BitsRunA.lean ====
/-
  The body at a point of the FIRST column tile (the accumulator is cleared, then the tile's row sums are added; nothing is
  stored into the output block): on whole memrefs — the row and column blocks at their contents, the output's buffer at
  contents handed back untouched, the accumulator at anything — it runs to the continuation holding the blocks as they
  were and the accumulator with the pieces its stores wrote, which the run finds.
-/
import proofs.«138042_j24464133718914_1_alg».proof.Proof.BitsFrameKit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x256 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frm

end
-- ==== Proof.BitsRunB.lean ====
/-
  The body at a point of a MIDDLE column tile (the tile's row sums are added to the accumulator; nothing else): the
  accumulator comes in at the contents the point before left.
-/
import proofs.«138042_j24464133718914_1_alg».proof.Proof.BitsRunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x256 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frm

end
-- ==== Proof.BitsRunC.lean ====
/-
  The body at a point of the LAST column tile (the tile's row sums are added to the accumulator, which is then copied
  into the output block): the accumulator comes in at the contents the point before left, the output's buffer at
  anything, and both leave with the pieces the stores wrote.
-/
import proofs.«138042_j24464133718914_1_alg».proof.Proof.BitsRunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frm

end
-- ==== Proof.BitsFrame.lean ====
/-
  The frame of the denominator kernel's program: what the accumulator and the output block hold point by point, the
  invariant between points, the proof data, the body obligation, and the run of @main.

  The sixteen grid points run row tile by row tile; within a row tile the four column tiles clear the accumulator,
  add each tile's row sums to it, and at the last copy it into the output block, which is then written back.  Both input
  windows stage blocks of ONE array, the stacked unit rows: the region is entered by dealing that array's full share
  to the two windows, half each, and left by joining the halves.
-/
import proofs.«138042_j24464133718914_1_alg».proof.Proof.BitsRunC
import proofs.«138042_j24464133718914_1_alg».proof.Proof.LibSharedLaunch

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block and in the accumulator -/

/-- Away from the last column tile nothing is stored into the output block: a placeholder that nothing consults
    (the window is idle there and not written back). -/
def out0_A_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x256 .bf16) : Vec F S1024x1 .f32 :=
  VO0_2.read (Elt F) (VO0_2.writes (Elt F) VO0_2.junk (kernelRun0_A c i arg2 harg2 arg3 harg3 arg4 harg4 arg5 harg5 hc0 hc1 x0 x1).1)

/-- The stores into the accumulator cover it. -/
theorem scover0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x256 .bf16) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What the point leaves in the accumulator: its pieces read back. -/
def sout0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x256 .bf16) : Vec F S1024x1 .f32 :=
  VS0_0.read (Elt F) (VS0_0.writes (Elt F) VS0_0.junk (kernelRun0_A c i arg2 harg2 arg3 harg3 arg4 harg4 arg5 harg5 hc0 hc1 x0 x1).2.1)

/-- Away from the last column tile nothing is stored into the output block: a placeholder that nothing consults
    (the window is idle there and not written back). -/
def out0_B_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x256 .bf16) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- The stores into the accumulator cover it. -/
theorem scover0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x256 .bf16) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What the point leaves in the accumulator: its pieces read back. -/
def sout0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x256 .bf16) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- At the last column tile the stores into the output block cover it. -/
theorem cover0_C_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What the last column tile leaves in the output block: its pieces read back. -/
def out0_C_2 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- The stores into the accumulator cover it. -/
theorem scover0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What the point leaves in the accumulator: its pieces read back. -/
def sout0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- THE ACCUMULATION. What the output block's staging buffer and the accumulator hold after the body at position `n`:
    the case the closed forms select at `n`, run at the point's memrefs and blocks, the accumulator (outside the first
    column tile) coming in at what position `n - 1` left. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At a point of the first column tile. -/
theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a point of a middle column tile: over what the point before left. -/
theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last column tile: over what the point before left. -/
theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the accumulator is the core's scoped rest, at anything; after position `n` it holds what that
    position left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body each input's buffer at its block and the output's at
    `outsAt0`; the stacked rows' buffer, which BOTH input windows stage, held by the row window at the left half of the
    full share and by the column window at the right half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => PosShare.left fullShare
    | ⟨1, _⟩ => PosShare.right fullShare
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in; the
    invariant hands the body the accumulator at what the point before left (at anything at the very first point) and
    takes it back at this point's contents; the output block is handed back untouched except at the last column tile,
    where it leaves with the accumulator's copy. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, scopedRest_acc]
        iintro ⟨HS0, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _)
        isplitl [Ho]; · iexact Ho
        isplitl [H0]; · iexact H0
        isplitl [H1]; · iexact H1
        iexists _; iexact H2
      · rw [PhiS_castSucc m c t, PhiS_pos m c _ _ hz]
        iintro ⟨HS0, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _)
        isplitl [Ho]; · iexact Ho
        isplitl [H0]; · iexact H0
        isplitl [H1]; · iexact H1
        iexists _; iexact H2
  · by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      have hz : t.val ≠ 0 := by omega
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  have hl : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ hl, scopedRest_acc]
  iintro HS0
  iexists _; iexact HS0

/-! ## The shared array: dealing its share, and the contents at the region's exit -/

/-- The buffers' contents when the region is left: the denominators' array at what the write-backs made of it,
    everything else as the region found it. -/
def Vx (c : Dev nD) : Valuation τ sig (Elt F) := fun b =>
  if h : b = Proc.devRef .tc main_v20 then
    cast (congrArg (fun b' : DevRef τ sig => b'.ty.Contents (Elt F)) h.symm) ((dats m 0 c).arrAt 2 cfg0.N)
  else V0 m c b

theorem Vx_v20 (c : Dev nD) : Vx m c (Proc.devRef .tc main_v20) = (dats m 0 c).arrAt 2 cfg0.N := by
  unfold Vx; rw [dif_pos rfl]; rfl

theorem Vx_of_ne (c : Dev nD) (b : Ref sig .tc) (hb : b ≠ main_v20) : Vx m c (Proc.devRef .tc b) = V0 m c (Proc.devRef .tc b) := by
  unfold Vx; rw [dif_neg]; intro e; exact hb (Proc.devRef_injective _ e)

/-- The two distinct buffers behind the three windows. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v19) ↦{fullShare} W main_v19) ∗ (((c.tc : Thread nD τ).loc main_v20) ↦{fullShare} W main_v20)) := by
  unfold Pipeline.arrBufs
  rw [bigSep_eq_bigSepL_of_eq [main_v19, main_v20] (by decide) (by decide)]
  rfl

/-- The three windows' arrays: the stacked rows twice, at the two halves of the full share, and the denominators. -/
theorem arrays_eq (c : Dev nD) (G : (w : Fin cfg0.W) → Buf (Elt F) ((cfg0.win w).arr.view.loc (c.tc : Thread nD τ))) :
    ((dats m 0 c).arrays G : sProp 𝕄)
      = iprop((((c.tc : Thread nD τ).loc main_v19) ↦{PosShare.left fullShare} G 0) ∗ (((c.tc : Thread nD τ).loc main_v19) ↦{PosShare.right fullShare} G 1)
          ∗ (((c.tc : Thread nD τ).loc main_v20) ↦{fullShare} G 2)) := by
  unfold Dat.arrays
  rw [bigSep_W0, (arr_whole0 0).set_eq_univ, (arr_whole0 2).set_eq_univ]
  rfl

/-- Entering the region: the stacked rows' full share is dealt to the two windows that stage them. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrBufs_eq, arrays_eq]
  iintro ⟨Ha, Hb⟩
  ihave Hs := (pointsTo_share (PosShare.mem_left_op_right fullShare)).1 $$ Ha
  icases Hs with ⟨Hl, Hr⟩
  isplitl [Hl]; · iexact Hl
  isplitl [Hr]; · iexact Hr
  iexact Hb

/-- Leaving it: the halves are joined again; the denominators' array is at its written contents. -/
theorem hmerge (c : Dev nD) : ((dats m 0 c).arrays ((dats m 0 c).arrAt · cfg0.N) : sProp 𝕄)
    ⊣⊢ Pipeline.arrBufs (Ix := Unit) (Name := ℕ) (U := UR sig nD τ) (Lvl := ℕ) spec0 c (fun b => Vx m c (Proc.devRef .tc b)) := by
  rw [arrBufs_eq, arrays_eq, Vx_v20, Vx_of_ne m c main_v19 (by decide),
    (dats m 0 c).arrAt_in 0 rfl, (dats m 0 c).arrAt_in 1 rfl]
  constructor
  · iintro ⟨Hl, Hr, Hb⟩
    isplitl [Hl Hr]
    · iapply (pointsTo_share (PosShare.mem_left_op_right fullShare)).2
      isplitl [Hl]; · iexact Hl
      iexact Hr
    iexact Hb
  · iintro ⟨Ha, Hb⟩
    ihave Hs := (pointsTo_share (PosShare.mem_left_op_right fullShare)).1 $$ Ha
    icases Hs with ⟨Hl, Hr⟩
    isplitl [Hl]; · iexact Hl
    isplitl [Hr]; · iexact Hr
    iexact Hb

/-- A buffer no window stages is untouched by the region. -/
theorem hrest (c : Dev nD) : ∀ b ∈ Pipeline.restRefs sig spec0, Vx m c (Proc.devRef .tc b) = V0 m c (Proc.devRef .tc b) := by
  intro b hb
  refine Vx_of_ne m c b fun e => ?_
  subst e
  exact (Finset.mem_sdiff.mp hb).2 (Finset.mem_image.mpr ⟨2, Finset.mem_univ _, rfl⟩)

/-! ## The run and the frame -/

set_option backward.isDefEq.respectTransparency.types false in
/-- Every weakly fair execution of @main terminates; each window's array ends at what the library computes from the proof
    data, every other unscoped buffer at what the operations after the region compute from the exit contents. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after ([hostOps1] : List (List (HloOp τ sig (Elt F)))).flatten (Vx m c) (Proc.devRef .tc b)) :=
  Pipeline.θ_run_shared_around cfgs (dats m) (0 : Fin 1) defs₀ Variants.none cellOf_inj winFacts₀0 block_pos0 arr_whole0 stage_whole0 m ρ main
    (hbody := fun c => (body_obligation m c).loose) (howed := fun _ _ => rfl)
    (V₀ := V0 m) (Vx := Vx m) (opss := [hostOps1]) (hsub := sfx_sub) (hfresh := sfx_fresh) (hkeep := sfx_keeps)
    (hmain := hmain m Variants.none) (hsplit := hsplit m) (hmerge := hmerge m) (hrest := hrest m) (hin := hin m) (hout := hout m)

/-- The first argument array is no window's array and no operation after the region writes it. -/
theorem V_main_arg0 (c : Dev nD) : V m c main_arg0 = m ((c : Thread nD τ).loc main_arg0) := rfl
theorem V_main_arg1 (c : Dev nD) : V m c main_arg1 = m ((c : Thread nD τ).loc main_arg1) := rfl

/-- No operation after the region writes an argument array. -/
theorem tail_keeps_args : ∀ op ∈ (([hostOps1] : List (List (HloOp τ sig (Elt F)))).flatten),
    Proc.devRef (τ := τ) .tc main_arg0 ∉ op.writes ∧ Proc.devRef (τ := τ) .tc main_arg1 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- THE FRAME: every weakly fair execution of @main terminates and both argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    refine ⟨((h c).2 main_arg0 (by decide)).trans ?_, ((h c).2 main_arg1 (by decide)).trans ?_⟩
    · rw [StableHlo.after_of_forall_not_mem _ _ fun op hop => (tail_keeps_args op hop).1, Vx_of_ne m c main_arg0 (by decide)]
      exact V_main_arg0 m c
    · rw [StableHlo.after_of_forall_not_mem _ _ fun op hop => (tail_keeps_args op hop).2, Vx_of_ne m c main_arg1 (by decide)]
      exact V_main_arg1 m c) (run_main m ρ)

end Cert.Kernel.Frm

end
-- ==== Proof.Spec.lean ====
/-
  The contrastive (InfoNCE) loss as one function of the 4096 unit rows `z` (the two batches of 2048 embeddings,
  each row divided by its Euclidean norm, stacked), over the extended reals.

  For rows `r`, `c` the similarity is the inner product `sim z r c = ∑ d, z r d * z c d`.  Row `r`'s denominator is
  the sum over every OTHER row `c` of `exp (sim z r c * 2)` (the temperature is 1/2): `denRow`.  Row `k`'s positive
  pair is the similarity of row `k mod 2048` of the first batch with the same row of the second: `posRow`.  The loss
  is the mean over the 4096 rows of `-log (exp (pos / (1/2)) / den)`: `lossTail`, written with the host operations both
  programs end with, so that each program's last lines are this term applied to its own `pos` and `den` vectors.
-/
import Idealize.ShloMosaic.PureOps.Ideal.Laws
import Idealize.ShloMosaic.Lib.ValueIdx

noncomputable section

namespace Cert.Contrast

open Idealize.ShloMosaic Idealize.ShloMosaic.ValueIdx

/-- The stacked unit rows: 4096 rows of 256 entries. -/
abbrev SRows : Shape := ⟨2, ![4096, 256]⟩
/-- One number per row. -/
abbrev SVec : Shape := ⟨1, ![4096]⟩
/-- A single number. -/
abbrev SOne : Shape := ⟨0, ![]⟩

/-- The inner product of rows `r` and `c`. -/
def sim (z : FVec Ideal SRows .f32) (r c : Fin 4096) : EReal :=
  ∑ d : Fin 256, z (ix2 r d) * z (ix2 c d)

/-- The inverse temperature, the float word of 2. -/
abbrev two : EReal := Ideal.ofBits .f32 0x40000000#32

/-- Row `r`'s term for column `c`: nothing on the diagonal, `exp (2 · sim)` off it. -/
def negTerm (z : FVec Ideal SRows .f32) (r c : Fin 4096) : EReal :=
  if r = c then 0 else Ideal.exp (sim z r c * two)

/-- Row `r`'s denominator: the sum of its terms over all 4096 columns. -/
def denRow (z : FVec Ideal SRows .f32) (r : Fin 4096) : EReal :=
  ∑ c : Fin 4096, negTerm z r c

/-- Row `k`'s partner in the first batch: row `k mod 2048`. -/
def lo (k : Fin 4096) : Fin 4096 := ⟨k.val % 2048, by omega⟩
/-- and in the second batch: row `k mod 2048 + 2048`. -/
def hi (k : Fin 4096) : Fin 4096 := ⟨k.val % 2048 + 2048, by omega⟩

/-- Row `k`'s positive pair: first-batch row against second-batch row. -/
def posRow (z : FVec Ideal SRows .f32) (k : Fin 4096) : EReal :=
  ∑ d : Fin 256, z (ix2 (lo k) d) * z (ix2 (hi k) d)

/-- The denominators as a vector. -/
def denVec (z : FVec Ideal SRows .f32) : FVec Ideal SVec .f32 := fun i => denRow z ⟨(i 0).val, (i 0).isLt⟩
/-- The positive pairs as a vector. -/
def posVec (z : FVec Ideal SRows .f32) : FVec Ideal SVec .f32 := fun i => posRow z ⟨(i 0).val, (i 0).isLt⟩

/-- The last lines of both programs: `mean (-log (exp (pos / (1/2)) / den))` over the 4096 rows, in the host's operations
    (the three shape facts are each program's own; any proofs of them give the same term). -/
def lossTail (hb : SOne.BroadcastsInDim SVec (![] : Fin 0 → Fin SVec.rank)) (hr : SVec.ReducesTo [0] SOne) (h0 : 0 < SOne.numel)
    (pos den : FVec Ideal SVec .f32) : FVec Ideal SOne .f32 :=
  Host.divf (F := Ideal)
    (Host.reduceAdd (F := Ideal)
      (Host.negf (F := Ideal) (Host.log (F := Ideal) (Host.divf (F := Ideal)
        (Host.exp (F := Ideal) (Host.divf (F := Ideal) pos (broadcastInDim SVec ![] hb (constant (F := Ideal) SOne .f32 0x3F000000#32))))
        den)))
      (constant (F := Ideal) SOne .f32 0x00000000#32) hr h0)
    (constant (F := Ideal) SOne .f32 0x45800000#32)

end Cert.Contrast

end
-- ==== Proof.HostSides.lean ====
/-
  The kernel program's host operations on either side of the region, read as terms over the extended reals.

  Before the region the program divides every row of each [2048, 256] argument by its Euclidean norm (bounded below
  by 1e-12): `nrm`.  It multiplies the two normalised arrays entry by entry and sums each row, which gives the 2048
  positive pairs (`posK`), and it stacks the two normalised arrays into the [4096, 256] array of unit rows (`rowsK`),
  narrowed to bf16 for the region; over the extended reals a change of format is the identity, so the region finds
  the stacked unit rows themselves.

  After the region the program flattens the [4096, 1] array of denominators the region wrote, repeats the positive
  pairs twice end to end, and finishes with the mean of `-log (exp (pos / (1/2)) / den)` over the 4096 rows: the
  specification's `lossTail` applied to those two vectors.
-/
import proofs.«138042_j24464133718914_1_alg».proof.Proof.Frame
import proofs.«138042_j24464133718914_1_alg».proof.Proof.Spec
import Idealize.ShloMosaic.Lib.StableHlo.Run
import Idealize.ShloMosaic.Lib.ValueIdx

set_option maxRecDepth 16384

noncomputable section

namespace Cert.KernelIdeal.Host

open Cert.KernelIdeal Cert.KernelIdeal.Gen Cert.KernelIdeal.Frm
open Idealize.ShloMosaic Idealize.ShloMosaic.TcCoe Idealize.ShloMosaic.ValueIdx Idealize.ShloMosaic.StableHlo

variable (m : (ℓ : Loc nD τ sig) → Buf (Elt Ideal) ℓ)

/-! ## The operations before the region, as functions of the arguments -/

/-- One argument's rows divided by their norms: `x / max (sqrt (∑ x * x), 1e-12)`, the sum along each row, in the
    program's own operations. -/
def nrm (x : FVec Ideal S2048x256 .f32) : FVec Ideal S2048x256 .f32 :=
  Host.divf (F := Ideal) x
    (broadcastInDim S2048x256 ![0, 1] bcast_S2048x1_S2048x256_0_1
      (maximumf
        (Host.sqrt (F := Ideal)
          (broadcastInDim S2048x1 ![0] bcast_S2048_S2048x1_0
            (Host.reduceAdd (F := Ideal) (mulf x x) (constant (F := Ideal) S_ .f32 0x00000000#32) reducesTo_S2048x256_S2048_d1 h_S_)))
        (broadcastInDim S2048x1 ![] bcast_S_S2048x1 (constant (F := Ideal) S_ .f32 0x2B8CBCCC#32))))

/-- Two [2048, 256] arrays stacked along the rows. -/
def rowsK (a b : FVec Ideal S2048x256 .f32) : FVec Ideal S4096x256 .f32 :=
  concatenate S4096x256 0 [⟨S2048x256, a⟩, ⟨S2048x256, b⟩] concatenates_S2048x256_S2048x256_S4096x256_d0

/-- The row sums of the entrywise product of two [2048, 256] arrays. -/
def posK (a b : FVec Ideal S2048x256 .f32) : FVec Ideal S2048 .f32 :=
  Host.reduceAdd (F := Ideal) (mulf a b) (constant (F := Ideal) S_ .f32 0x00000000#32) reducesTo_S2048x256_S2048_d1 h_S_

/-- Core `c`'s first argument array, as the program finds it. -/
abbrev x0 (c : Dev nD) : FVec Ideal S2048x256 .f32 := m ((c.tc : Thread nD τ).loc main_arg0)
/-- Core `c`'s second argument array. -/
abbrev x1 (c : Dev nD) : FVec Ideal S2048x256 .f32 := m ((c.tc : Thread nD τ).loc main_arg1)

/-! ## What the region finds -/

/-- The positive pairs: the row sums of the product of the two normalised arguments. -/
theorem V_v17 (c : Dev nD) : V (F := Ideal) m c main_v17 = posK (nrm (x0 m c)) (nrm (x1 m c)) := by
  dsimp only [V, V0]
  simp only [hostOps0, List.flatten_cons, List.flatten_nil, List.append_nil]
  after_results
  rfl

set_option maxHeartbeats 1600000 in
/-- The array both input windows stage: the two normalised arguments stacked.  The narrowing to bf16 is the identity
    over the extended reals, so each entry is the stacked array's entry. -/
theorem V_v19 (c : Dev nD) (i : S4096x256.Idx) :
    V (F := Ideal) m c main_v19 i = rowsK (nrm (x0 m c)) (nrm (x1 m c)) i := by
  have e : (V (F := Ideal) m c main_v19 : S4096x256.Idx → EReal)
      = truncf .bf16 (rowsK (nrm (x0 m c)) (nrm (x1 m c))) bitsLt_bf16_f32 := by
    dsimp only [V, V0]
    simp only [hostOps0, List.flatten_cons, List.flatten_nil, List.append_nil]
    after_results
    rfl
  exact (congrFun e i).trans (truncf_apply _ _ i)

/-! ## The operations after the region -/

/-- The program's result: the specification's closing term applied to the positive pairs repeated twice and to the
    denominators' array, flattened, at what the region's write-backs made of it.  Of the buffers the closing operations
    read, only the denominators' was written by the region; the positive pairs are as the region found them. -/
theorem tail_eq (c : Dev nD) :
    StableHlo.after ([hostOps1] : List (List (HloOp τ sig (Elt Ideal)))).flatten (Vx m c) (Proc.devRef .tc main_v30)
      = Cert.Contrast.lossTail bcast_S_S4096 reducesTo_S4096_S_d0 h_S_
          (concatenate S4096 0 [⟨S2048, V (F := Ideal) m c main_v17⟩, ⟨S2048, V (F := Ideal) m c main_v17⟩] concatenates_S2048_S2048_S4096_d0)
          (shapeCast S4096 ((dats (F := Ideal) m 0 c).arrAt 2 cfg0.N) shapeCasts_S4096x1_S4096) := by
  simp only [hostOps1, List.flatten_cons, List.flatten_nil, List.append_nil]
  after_results
  rw [Vx_v20, Vx_of_ne m c main_v17 (by decide)]
  unfold Cert.Contrast.lossTail
  rfl

end Cert.KernelIdeal.Host

end
-- ==== Proof.LibConcatVec.lean ====
/-
  TWO VECTORS END TO END. A two-piece `stablehlo.concatenate` of vectors of lengths A and B, read at ONE element, at
  any extents: element j of the whole is the first piece's element j when j < A, and the second piece's element
  j − A otherwise. With it, the splitting of a sum over the whole's positions that satisfy a predicate into the sum
  over the first A positions and the sum over the last B.
-/
import Idealize.ShloMosaic.Lib.ValueIdx
import Idealize.ShloMosaic.Lib.Pipeline.Value
import Mathlib.Algebra.BigOperators.Fin

noncomputable section

open scoped BigOperators

namespace Idealize.ShloMosaic.ConcatVec

open Idealize.ShloMosaic Idealize.ShloMosaic.ValueIdx

/-! ## The concatenation of two vectors at an element -/

section Apply
variable {α : Type} {A B C : Nat}

/-- The two pieces' lengths add up to the whole's. -/
theorem extent (h : Shape.Concatenates [(⟨1, ![A]⟩ : Shape), ⟨1, ![B]⟩] ⟨1, ![C]⟩ 0) : A + B = C := by
  have e := h.2.2
  simpa using e

/-- An element before the first piece's end is the first piece's, at the same position. -/
theorem concat_vec_left (h : Shape.Concatenates [(⟨1, ![A]⟩ : Shape), ⟨1, ![B]⟩] ⟨1, ![C]⟩ 0)
    (a : (⟨1, ![A]⟩ : Shape).Idx → α) (b : (⟨1, ![B]⟩ : Shape).Idx → α) (j : Fin C) (hj : j.val < A) :
    concatenate ⟨1, ![C]⟩ 0 [⟨⟨1, ![A]⟩, a⟩, ⟨⟨1, ![B]⟩, b⟩] h (ix1 j) = a (ix1 ⟨j.val, hj⟩) :=
  concatenate_pair_apply_left 0 a b h (ix1 j) rfl (ix1 ⟨j.val, hj⟩) fun c => by
    obtain rfl : c = 0 := Subsingleton.elim _ _
    rfl

/-- An element at or past the first piece's end is the second piece's, the first piece's length earlier. -/
theorem concat_vec_right (h : Shape.Concatenates [(⟨1, ![A]⟩ : Shape), ⟨1, ![B]⟩] ⟨1, ![C]⟩ 0)
    (a : (⟨1, ![A]⟩ : Shape).Idx → α) (b : (⟨1, ![B]⟩ : Shape).Idx → α) (j : Fin C) (hj : A ≤ j.val) :
    concatenate ⟨1, ![C]⟩ 0 [⟨⟨1, ![A]⟩, a⟩, ⟨⟨1, ![B]⟩, b⟩] h (ix1 j)
      = b (ix1 ⟨j.val - A, by have := extent h; have := j.isLt; omega⟩) :=
  concatenate_pair_apply_right 0 a b h (ix1 j) rfl rfl (ix1 ⟨j.val - A, by have := extent h; have := j.isLt; omega⟩)
    (fun c hc => absurd (Subsingleton.elim _ _) hc)
    (by show j.val - A + A = j.val; omega)

/-- THE CONCATENATION AT AN ELEMENT: the first piece below its length, the second piece shifted by it from there on. -/
theorem concat_vec_apply (h : Shape.Concatenates [(⟨1, ![A]⟩ : Shape), ⟨1, ![B]⟩] ⟨1, ![C]⟩ 0)
    (a : (⟨1, ![A]⟩ : Shape).Idx → α) (b : (⟨1, ![B]⟩ : Shape).Idx → α) (j : Fin C) :
    concatenate ⟨1, ![C]⟩ 0 [⟨⟨1, ![A]⟩, a⟩, ⟨⟨1, ![B]⟩, b⟩] h (ix1 j)
      = if hj : j.val < A then a (ix1 ⟨j.val, hj⟩)
        else b (ix1 ⟨j.val - A, by have := extent h; have := j.isLt; omega⟩) := by
  split
  · next hj => exact concat_vec_left h a b j hj
  · next hj => exact concat_vec_right h a b j (Nat.le_of_not_lt hj)

/-- Position i of the first A positions holds the first piece's element i. -/
theorem concat_vec_castAdd (h : Shape.Concatenates [(⟨1, ![A]⟩ : Shape), ⟨1, ![B]⟩] ⟨1, ![C]⟩ 0)
    (a : (⟨1, ![A]⟩ : Shape).Idx → α) (b : (⟨1, ![B]⟩ : Shape).Idx → α) (i : Fin A) :
    concatenate ⟨1, ![C]⟩ 0 [⟨⟨1, ![A]⟩, a⟩, ⟨⟨1, ![B]⟩, b⟩] h
        (ix1 ⟨i.val, by have := extent h; have := i.isLt; omega⟩) = a (ix1 i) :=
  concat_vec_left h a b _ i.isLt

/-- Position A + i of the last B positions holds the second piece's element i. -/
theorem concat_vec_natAdd (h : Shape.Concatenates [(⟨1, ![A]⟩ : Shape), ⟨1, ![B]⟩] ⟨1, ![C]⟩ 0)
    (a : (⟨1, ![A]⟩ : Shape).Idx → α) (b : (⟨1, ![B]⟩ : Shape).Idx → α) (i : Fin B) :
    concatenate ⟨1, ![C]⟩ 0 [⟨⟨1, ![A]⟩, a⟩, ⟨⟨1, ![B]⟩, b⟩] h
        (ix1 ⟨A + i.val, by have := extent h; have := i.isLt; omega⟩) = b (ix1 i) := by
  rw [concat_vec_right h a b _ (Nat.le_add_right A i.val)]
  congr 2
  apply Fin.ext
  show A + i.val - A = i.val
  omega

end Apply

/-! ## Sums over the whole's positions -/

/-- A sum over the positions of the whole that satisfy a predicate is the sum over such positions among the first A plus
    the sum over such positions among the last B. -/
theorem sum_filter_split {M : Type*} [AddCommMonoid M] {A B C : Nat} (hC : A + B = C) (p : Fin C → Prop) [DecidablePred p]
    (f : Fin C → M) :
    ∑ j ∈ Finset.univ.filter p, f j
      = (∑ i ∈ Finset.univ.filter (fun i : Fin A => p ⟨i.val, by have := i.isLt; omega⟩),
            f ⟨i.val, by have := i.isLt; omega⟩)
        + ∑ i ∈ Finset.univ.filter (fun i : Fin B => p ⟨A + i.val, by have := i.isLt; omega⟩),
            f ⟨A + i.val, by have := i.isLt; omega⟩ := by
  subst hC
  rw [Finset.sum_filter, Finset.sum_filter, Finset.sum_filter, Fin.sum_univ_add]
  rfl

/-- The same for a sum over all the whole's positions. -/
theorem sum_split {M : Type*} [AddCommMonoid M] {A B C : Nat} (hC : A + B = C) (f : Fin C → M) :
    ∑ j : Fin C, f j
      = (∑ i : Fin A, f ⟨i.val, by have := i.isLt; omega⟩) + ∑ i : Fin B, f ⟨A + i.val, by have := i.isLt; omega⟩ := by
  subst hC
  rw [Fin.sum_univ_add]
  rfl

/-! ## Axiom pins -/

/-- info: 'Idealize.ShloMosaic.ConcatVec.concat_vec_apply' depends on axioms: [propext, Classical.choice, Quot.sound] -/
#guard_msgs (whitespace := lax) in #print axioms concat_vec_apply
/-- info: 'Idealize.ShloMosaic.ConcatVec.concat_vec_castAdd' depends on axioms: [propext, Quot.sound] -/
#guard_msgs (whitespace := lax) in #print axioms concat_vec_castAdd
/-- info: 'Idealize.ShloMosaic.ConcatVec.concat_vec_natAdd' depends on axioms: [propext, Classical.choice, Quot.sound] -/
#guard_msgs (whitespace := lax) in #print axioms concat_vec_natAdd
/-- info: 'Idealize.ShloMosaic.ConcatVec.sum_filter_split' depends on axioms: [propext, Classical.choice, Quot.sound] -/
#guard_msgs (whitespace := lax) in #print axioms sum_filter_split

end Idealize.ShloMosaic.ConcatVec

end
-- ==== Proof.KernelPos.lean ====
/-
  THE KERNEL PROGRAM'S POSITIVE PAIRS ARE THE SPECIFICATION'S, at the ideal instance.

  From the two normalised [2048, 256] arrays a and b the program forms the stacked rows z = (a over b), a [4096, 256]
  array, and the vector p of the 2048 row sums of the elementwise product a ⊙ b, and then joins p to itself into a
  vector of length 4096.  Read at one position:

    z (k, d)        = a (k, d)          for k below 2048,
    z (k + 2048, d) = b (k, d)          for k below 2048,
    p k             = 0 + ∑ d, a (k, d) * b (k, d) = ∑ d, a (k, d) * b (k, d),
    (p joined to p) i = p (i mod 2048)  for i below 4096.

  The specification's positive pair of row i is ∑ d, z (i mod 2048, d) * z (i mod 2048 + 2048, d), which by the first
  two lines is ∑ d, a (i mod 2048, d) * b (i mod 2048, d): the same number.
-/
import proofs.«138042_j24464133718914_1_alg».proof.KernelIdeal
import proofs.«138042_j24464133718914_1_alg».proof.Proof.Spec
import proofs.«138042_j24464133718914_1_alg».proof.Proof.LibConcatVec
import Idealize.ShloMosaic.Lib.Pipeline.Value
import Idealize.ShloMosaic.Lib.ValueIdx
import Idealize.ShloMosaic.PureOps.Ideal.Laws

noncomputable section

open scoped BigOperators

namespace Cert.KernelIdeal.Pos

open Cert.KernelIdeal Facts₀ Facts
open Idealize.ShloMosaic Idealize.ShloMosaic.ValueIdx Idealize.ShloMosaic.ConcatVec

variable [Facts]

/-! ## The two values -/

/-- The stacked rows: a's 2048 rows, then b's. -/
def rowsK (a b : FVec Ideal S2048x256 .f32) : FVec Ideal S4096x256 .f32 :=
  concatenate S4096x256 0 [⟨S2048x256, a⟩, ⟨S2048x256, b⟩] concatenates_S2048x256_S2048x256_S4096x256_d0

/-- The row sums of the elementwise product of a and b, from zero. -/
def posK (a b : FVec Ideal S2048x256 .f32) : FVec Ideal S2048 .f32 :=
  Host.reduceAdd (F := Ideal) (mulf a b) (constant (F := Ideal) S_ .f32 0x00000000#32) reducesTo_S2048x256_S2048_d1 h_S_

/-! ## The stacked rows at a position -/

/-- A row of the first half of the stack is a's row. -/
theorem rowsK_lo (a b : FVec Ideal S2048x256 .f32) (k : Fin 2048) (d : Fin 256) :
    rowsK a b (ix2 ⟨k.val, by omega⟩ d) = a (ix2 k d) :=
  concatenate_pair_apply_left 0 a b concatenates_S2048x256_S2048x256_S4096x256_d0 _ rfl (ix2 k d) fun c => by
    match c with
    | ⟨0, _⟩ => rfl
    | ⟨1, _⟩ => rfl

/-- A row of the second half of the stack is b's row, 2048 earlier. -/
theorem rowsK_hi (a b : FVec Ideal S2048x256 .f32) (k : Fin 2048) (d : Fin 256) :
    rowsK a b (ix2 ⟨k.val + 2048, by omega⟩ d) = b (ix2 k d) :=
  concatenate_pair_apply_right 0 a b concatenates_S2048x256_S2048x256_S4096x256_d0 _ rfl rfl (ix2 k d)
    (fun c hc => by
      match c, hc with
      | ⟨0, _⟩, hc => exact absurd rfl hc
      | ⟨1, _⟩, _ => rfl)
    rfl

/-! ## The row sums at a position -/

/-- Row k's sum: zero plus the sum over the 256 columns of the products, that is the sum of the products. -/
theorem posK_apply (a b : FVec Ideal S2048x256 .f32) (k : Fin 2048) :
    posK a b (ix1 k) = ∑ d : Fin 256, a (ix2 k d) * b (ix2 k d) := by
  unfold posK
  simp only [Host.reduceAdd, Ideal.hostReduceAdd_def]
  rw [Ideal.hostReduceAdd_single reducesTo_S2048x256_S2048_d1 (by decide)]
  have h0 : (constant (F := Ideal) S_ .f32 0x00000000#32) (Shape.Idx.first h_S_) = (0 : EReal) := Ideal.ofBits_zero_f32
  rw [h0, zero_add]
  refine Finset.sum_congr rfl fun d _ => ?_
  rw [mulf_apply]
  have e : ∀ h : S2048x256.Reduces [1] S2048, h.lift (ix1 k) d = ix2 k d := fun h =>
    funext fun c => Fin.ext (by match c with | ⟨0, _⟩ => rfl | ⟨1, _⟩ => rfl)
  rw [e]
  rfl

/-! ## The specification's positive pair over the stacked rows -/

/-- Row i's positive pair over the stack: the inner product of a's row i mod 2048 with b's. -/
theorem posRow_rowsK (a b : FVec Ideal S2048x256 .f32) (i : Fin 4096) :
    Cert.Contrast.posRow (rowsK a b) i
      = ∑ d : Fin 256, a (ix2 ⟨i.val % 2048, Nat.mod_lt _ (by decide)⟩ d) * b (ix2 ⟨i.val % 2048, Nat.mod_lt _ (by decide)⟩ d) := by
  unfold Cert.Contrast.posRow
  refine Finset.sum_congr rfl fun d _ => ?_
  have h1 : rowsK a b (ix2 (Cert.Contrast.lo i) d) = a (ix2 ⟨i.val % 2048, Nat.mod_lt _ (by decide)⟩ d) :=
    rowsK_lo a b ⟨i.val % 2048, Nat.mod_lt _ (by decide)⟩ d
  have h2 : rowsK a b (ix2 (Cert.Contrast.hi i) d) = b (ix2 ⟨i.val % 2048, Nat.mod_lt _ (by decide)⟩ d) :=
    rowsK_hi a b ⟨i.val % 2048, Nat.mod_lt _ (by decide)⟩ d
  rw [h1, h2]

/-! ## The joined row sums are the specification's positive pairs -/

/-- Position i of the row sums joined to themselves is the specification's positive pair of row i over the stack. -/
theorem pos_eq (a b : FVec Ideal S2048x256 .f32) (i : S4096.Idx) :
    (concatenate S4096 0 [⟨S2048, posK a b⟩, ⟨S2048, posK a b⟩] concatenates_S2048_S2048_S4096_d0 : FVec Ideal S4096 .f32) i
      = Cert.Contrast.posVec (rowsK a b) i := by
  obtain ⟨j, rfl⟩ : ∃ j : Fin 4096, i = ix1 j := ⟨i 0, eq_ix1 i⟩
  have hR : Cert.Contrast.posVec (rowsK a b) (ix1 j) = Cert.Contrast.posRow (rowsK a b) j := rfl
  rw [hR, posRow_rowsK, concat_vec_apply concatenates_S2048_S2048_S4096_d0 (posK a b) (posK a b) j]
  split
  · next hj =>
    -- below 2048 the position is its own remainder
    rw [posK_apply]
    have e : (⟨j.val % 2048, Nat.mod_lt _ (by decide)⟩ : Fin 2048) = ⟨j.val, hj⟩ := Fin.ext (Nat.mod_eq_of_lt hj)
    rw [e]
  · next hj =>
    -- from 2048 on, below 4096, the remainder is the position less 2048
    rw [posK_apply]
    have e : (⟨j.val % 2048, Nat.mod_lt _ (by decide)⟩ : Fin 2048)
        = ⟨j.val - 2048, by have := j.isLt; omega⟩ := Fin.ext (by show j.val % 2048 = j.val - 2048; have := j.isLt; omega)
    rw [e]

/-! ## Axiom pins -/

/-- info: 'Cert.KernelIdeal.Pos.rowsK_lo' depends on axioms: [propext, Classical.choice, Quot.sound] -/
#guard_msgs (whitespace := lax) in #print axioms rowsK_lo
/-- info: 'Cert.KernelIdeal.Pos.rowsK_hi' depends on axioms: [propext, Classical.choice, Quot.sound] -/
#guard_msgs (whitespace := lax) in #print axioms rowsK_hi
/-- info: 'Cert.KernelIdeal.Pos.pos_eq' depends on axioms: [propext, Classical.choice, Quot.sound] -/
#guard_msgs (whitespace := lax) in #print axioms pos_eq

end Cert.KernelIdeal.Pos

end
-- ==== Proof.LibTransposedRhsDot.lean ====
/-
  A two-dimensional contraction whose right operand is contracted on its LAST axis, read at one element over the
  extended reals.

  For the dimension numbers of an [M, K] by [N, K] product (the left operand's axis 1 contracted against the right
  operand's axis 1, no batch axis), entry (p, q) of the product is the sum over k of lhs (p, k) · rhs (q, k): the
  product of the left matrix with the TRANSPOSE of the right one. This holds of a kernel's matrix product into a zero
  accumulator and of the host's dot_general alike, whatever the precision attribute: at the extended reals both are the
  textbook contraction. Generic in the three extents.
-/
import Idealize.ShloMosaic.PureOps.Ideal.Laws
import Idealize.ShloMosaic.Lib.ValueIdx

noncomputable section

namespace Cert.Lib.TransposedRhsDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.transposedRhs M K N).contr.Idx) :
    ((DotDims.transposedRhs M K N).lhsIdx i r 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Axis 1 of the left operand is the contracted one: it reads the contraction position. -/
theorem lhs_axis1 (i : (⟨2, ![M, N]⟩ : Shape).Idx) (r : (DotDims.transposedRhs M K N).contr.Idx) :
    ((DotDims.transposedRhs M K N).lhsIdx i r 1).val = (r ⟨0, Nat.one_pos⟩).val :=
  (DotDims.transposedRhs M K N).lhsIdx_val_of_single rfl i r

/-- Axis 0 of the right operand is free: it reads the output's COLUMN coordinate. -/
theorem rhs_axis0 (i : (⟨2, ![M, N]⟩ : Shape).Idx) (r : (DotDims.transposedRhs M K N).contr.Idx) :
    ((DotDims.transposedRhs M K N).rhsIdx i r 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- Axis 1 of the right operand is the contracted one. -/
theorem rhs_axis1 (i : (⟨2, ![M, N]⟩ : Shape).Idx) (r : (DotDims.transposedRhs M K N).contr.Idx) :
    ((DotDims.transposedRhs M K N).rhsIdx i r 1).val = (r ⟨0, Nat.one_pos⟩).val :=
  (DotDims.transposedRhs M K N).rhsIdx_val_of_single rfl i r

/-- The contraction's sum over its one-axis index shape, re-indexed by that axis' coordinate: the sum over
    `k : Fin K` of lhs (p, k) · rhs (q, k). -/
theorem sum_eq (lhs : (⟨2, ![M, K]⟩ : Shape).Idx → EReal) (rhs : (⟨2, ![N, K]⟩ : Shape).Idx → EReal)
    (p : Fin M) (q : Fin N) :
    (∑ r : (DotDims.transposedRhs M K N).contr.Idx,
        lhs ((DotDims.transposedRhs M K N).lhsIdx (ix2 p q) r) * rhs ((DotDims.transposedRhs M K N).rhsIdx (ix2 p q) r))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_axis0 M K N _ _
      | ⟨1, _⟩ => exact (rhs_axis1 M K N _ _).trans hk)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_eq M K N lhs rhs p q

end Cert.Lib.TransposedRhsDot

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.PayloadAt.lean ====
/-
  The kernel body's two stored values, read at one entry over the extended reals.

  At grid point i = (row tile, column tile) the body contracts the [1024, 256] row block with the [1024, 256] column
  block on their last axes, doubles, exponentiates, puts 0 where the global row number (i 0) · 1024 + r equals the
  global column number (i 1) · 1024 + cc, sums each row over the tile's 1024 columns and adds the result to the
  accumulator column. Read at row r this is

      acc r + ∑ cc, (if (i 0) · 1024 + r = (i 1) · 1024 + cc then 0 else exp (⟨x0 r, x1 cc⟩ · 2)).

  The row and column numbers are sums of 32-bit words of numbers below 4096, so the comparison of the words is the
  comparison of the numbers. The value the body stores first, at the first column tile, is the zero column.
-/
import proofs.«138042_j24464133718914_1_alg».proof.Proof.Gen.KernelIdeal.Skeleton
import proofs.«138042_j24464133718914_1_alg».proof.Proof.Spec
import proofs.«138042_j24464133718914_1_alg».proof.Proof.LibTransposedRhsDot
import proofs.«138042_j24464133718914_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

/-! ## The diagonal test on 32-bit words -/

/-- A tile offset plus a position inside the tile, as 32-bit words: tile number `a` below 4 times 1024 plus a position
    `p` below 1024 is below 4096, far from 2³², so the word arithmetic is the arithmetic of the numbers. -/
theorem tileWord (a p : Nat) (ha : a < 4) (hp : p < 1024) :
    IntOp.addi (Scalar.muli (BitVec.ofNat 32 a) 1024#32) (BitVec.ofNat 32 p) = BitVec.ofNat 32 (a * 1024 + p) := by
  apply BitVec.eq_of_toNat_eq
  simp only [IntOp.addi, Scalar.muli, IntOp.muli, BitVec.toNat_add, BitVec.toNat_mul, BitVec.toNat_ofNat]
  omega

/-- Two numbers below 4096 are equal exactly when their 32-bit words are. -/
theorem word_eq_iff (m n : Nat) (hm : m < 4096) (hn : n < 4096) : BitVec.ofNat 32 m = BitVec.ofNat 32 n ↔ m = n := by
  constructor
  · intro h
    have := congrArg BitVec.toNat h
    simp only [BitVec.toNat_ofNat] at this
    omega
  · intro h; rw [h]

/-- A select on the comparison of a global row number with a global column number: the first branch exactly when the
    two numbers are equal. -/
theorem select_diag {α : Type} (a b p q : Nat) (ha : a < 4) (hb : b < 4) (hp : p < 1024) (hq : q < 1024) (A B : α) :
    Scalar.select (IntOp.cmpi .eq (IntOp.addi (Scalar.muli (BitVec.ofNat 32 a) 1024#32) (BitVec.ofNat 32 p))
        (IntOp.addi (Scalar.muli (BitVec.ofNat 32 b) 1024#32) (BitVec.ofNat 32 q))) A B
      = if a * 1024 + p = b * 1024 + q then A else B := by
  rw [tileWord a p ha hp, tileWord b q hb hq]
  by_cases h : a * 1024 + p = b * 1024 + q
  · rw [if_pos h, h]
    have : IntOp.cmpi .eq (BitVec.ofNat 32 (b * 1024 + q)) (BitVec.ofNat 32 (b * 1024 + q)) = 1#1 := by
      simp [IntOp.cmpi]
    rw [this, select_one]
  · rw [if_neg h]
    have hne : ¬ BitVec.ofNat 32 (a * 1024 + p) = BitVec.ofNat 32 (b * 1024 + q) :=
      fun e => h ((word_eq_iff _ _ (by omega) (by omega)).1 e)
    have hbeq : (BitVec.ofNat 32 (a * 1024 + p) == BitVec.ofNat 32 (b * 1024 + q)) = false :=
      beq_eq_false_iff_ne.2 hne
    have : IntOp.cmpi .eq (BitVec.ofNat 32 (a * 1024 + p)) (BitVec.ofNat 32 (b * 1024 + q)) = 0#1 := by
      unfold IntOp.cmpi
      rw [hbeq]
      rfl
    rw [this, select_zero]

/-! ## The index vectors at an entry -/

/-- The column of global row numbers, at (p, 0): the offset word plus p. -/
theorem rowIds_apply (w : BitVec 32) (p : Fin 1024) :
    addi (broadcast S1024x1 w) (iota .tc S1024x1 32 [0] iota_S1024x1_d0_w32) (ix2 p (0 : Fin 1))
      = IntOp.addi w (BitVec.ofNat 32 p.val) := by
  show IntOp.addi w (iota .tc S1024x1 32 [0] iota_S1024x1_d0_w32 (ix2 p (0 : Fin 1))) = _
  rw [iota_single_apply]

/-- The row of global column numbers, at (0, q): the offset word plus q. -/
theorem colIds_apply (w : BitVec 32) (q : Fin 1024) :
    addi (broadcast S1x1024 w) (iota .tc S1x1024 32 [1] iota_S1x1024_d1_w32) (ix2 (0 : Fin 1) q)
      = IntOp.addi w (BitVec.ofNat 32 q.val) := by
  show IntOp.addi w (iota .tc S1x1024 32 [1] iota_S1x1024_d1_w32 (ix2 (0 : Fin 1) q)) = _
  rw [iota_single_apply]

/-! ## The two stored values at an entry -/

/-- The first stored value is the zero column. -/
theorem pay1_apply (r : Fin 1024) : (k0_pay1 (F := Ideal)) (ix2 r (0 : Fin 1)) = 0 := by
  unfold k0_pay1
  rw [shapeCast_self]
  exact Ideal.ofBits_zero_f32

/-- The product of the row block with the transposed column block, at entry (p, q). -/
theorem gram_apply (x0 x1 : FVec Ideal S1024x256 .bf16) (p q : Fin 1024) :
    matmul dot_S1024x256_S1024x256_S1024x1024_1_1_0_0_n_n none x0 x1 (constant (F := Ideal) S1024x1024 .f32 0x00000000#32) (ix2 p q)
      = ∑ d : Fin 256, x0 (ix2 p d) * x1 (ix2 q d) :=
  Cert.Lib.TransposedRhsDot.matmul_zero_apply 1024 256 1024 none x0 x1 p q

/-- The second stored value at row r: the accumulator's entry plus the row's sum, over the tile's 1024 columns, of
    exp (2 · ⟨row r of the row block, row cc of the column block⟩), the entries on the global diagonal left out. -/
theorem pay2_apply (i : grid0.Coords) (x0 x1 : Vec Ideal S1024x256 .bf16) (acc : Vec Ideal S1024x1 .f32) (r : Fin 1024) :
    k0_pay2 (F := Ideal) i x0 x1 acc (ix2 r (0 : Fin 1))
      = acc (ix2 r (0 : Fin 1)) + ∑ cc : Fin 1024,
          (if (i 0).val * 1024 + r.val = (i 1).val * 1024 + cc.val then (0 : EReal)
           else Ideal.exp ((∑ d : Fin 256, x0 (ix2 r d) * x1 (ix2 cc d)) * Cert.Contrast.two)) := by
  unfold k0_pay2
  simp only [shapeCast_self]
  rw [addf_apply]
  refine congrArg (acc (ix2 r (0 : Fin 1)) + ·) ?_
  refine (Cert.Lib.Keepdims.shapeCast_a_a1_apply _ _ r (0 : Fin 1)).trans ?_
  refine (Cert.Lib.Keepdims.rowSum_apply _ _ _ _ _ r).trans ?_
  refine Finset.sum_congr rfl fun cc _ => ?_
  rw [select_apply, broadcast_apply]
  have hcmp : ∀ (x y : IVec S1024x1024 32) (j : S1024x1024.Idx), cmpi .eq x y j = IntOp.cmpi .eq (x j) (y j) :=
    fun _ _ _ => rfl
  have hexp : ∀ (x : FVec Ideal S1024x1024 .f32) (j : S1024x1024.Idx), exp x j = Ideal.exp (x j) := fun _ _ => rfl
  rw [hcmp, Cert.Lib.Keepdims.broadcastTo_a1_ab_apply, broadcastTo_1b_ab_apply, rowIds_apply, colIds_apply,
    select_diag _ _ _ _ (i 0).isLt (i 1).isLt r.isLt cc.isLt, hexp, mulf_apply, broadcast_apply, gram_apply]
  exact if_congr Iff.rfl Ideal.ofBits_zero_f32 rfl

end Cert.KernelIdeal.PayAt

end
-- ==== Proof.LibBlockSum.lean ====
/-
  Sums over an axis cut into equal blocks, on any commutative additive monoid, generic in the extents.

  An axis of n = a * b positions is a blocks of b positions each: position p of block i is position b * i + p of the
  axis, and every position is of that form exactly once. So the sum of a function over the axis is the sum over the
  blocks of its sums inside each block; and for a function of two such axes, the sum over all pairs of positions is the
  sum over the pairs of blocks (the tiles) of the sums inside each tile.
-/
import Mathlib.Algebra.BigOperators.Fin
import Mathlib.Logic.Equiv.Fin.Basic

open scoped BigOperators

namespace Cert.Lib.BlockSum

/-- Position p of block i of an axis of n = a * b positions cut into a blocks of b. -/
def blockPos (a b n : ℕ) (h : a * b = n) : Fin a × Fin b ≃ Fin n :=
  finProdFinEquiv.trans (finCongr h)

/-- It is position b * i + p of the axis. -/
theorem blockPos_val (a b n : ℕ) (h : a * b = n) (i : Fin a) (p : Fin b) :
    (blockPos a b n h (i, p)).val = p.val + b * i.val := rfl

/-- A sum over an axis is the sum over its blocks of the sums inside each block. -/
theorem sum_blocks {M : Type*} [AddCommMonoid M] (a b n : ℕ) (h : a * b = n) (f : Fin n → M) :
    ∑ i : Fin a, ∑ p : Fin b, f (blockPos a b n h (i, p)) = ∑ P : Fin n, f P := by
  rw [← Fintype.sum_prod_type' (fun i p => f (blockPos a b n h (i, p)))]
  exact Equiv.sum_comp (blockPos a b n h) f

/-- A sum over all pairs of positions of two axes is the sum over the tiles (a block of the first axis against a block
    of the second) of the sums over each tile's pairs. -/
theorem sum_tiles {M : Type*} [AddCommMonoid M] (a b n a' b' n' : ℕ) (h : a * b = n) (h' : a' * b' = n')
    (L : Fin n → Fin n' → M) :
    ∑ i : Fin a, ∑ j : Fin a', ∑ p : Fin b, ∑ q : Fin b', L (blockPos a b n h (i, p)) (blockPos a' b' n' h' (j, q))
      = ∑ P : Fin n, ∑ Q : Fin n', L P Q := by
  rw [← sum_blocks a b n h (fun P => ∑ Q : Fin n', L P Q)]
  refine Finset.sum_congr rfl fun i _ => ?_
  rw [Finset.sum_comm]
  refine Finset.sum_congr rfl fun p _ => ?_
  rw [← sum_blocks a' b' n' h' (fun Q => L (blockPos a b n h (i, p)) Q)]

end Cert.Lib.BlockSum
-- ==== Proof.KernelDen.lean ====
/-
  What the denominator kernel leaves in the denominators' array, at the ideal instance: row R ends at the
  specification's denominator of row R of the stacked unit rows,

      ∑ over the 4095 other rows c of exp (2 · ⟨z R, z c⟩).

  The sixteen grid points run row tile by row tile (point t is row tile t / 4, column tile t % 4; a tile is 1024 rows).
  Three steps.

  The pieces. Whatever the float values, each of the body's three control cases leaves in the accumulator, and at the
  last column tile in the output block, ONE value: the body's second stored value (what came in plus the tile's row
  sums), taken at the first column tile over the zero column the body has just stored and read back, and copied at the
  last column tile from the accumulator into the output block.

  The accumulation. Over the extended reals that stored value at row r of the tile is what came in plus the sum over the
  column tile's 1024 rows cc of the specification's term for (row 1024 · (t / 4) + r, column 1024 · (t % 4) + cc): a row
  of a block is that row of the stacked array, and the body's diagonal test compares exactly these two row numbers. So,
  by induction on the point, after point t the accumulator holds at row r the terms of the column tiles 0 to t % 4.

  The array. At the last column tile all four column tiles are in, and the four tiles of 1024 columns are the 4096
  columns: the output block holds its rows' denominators. The four write-backs, one per row tile, tile the array.
-/
import proofs.«138042_j24464133718914_1_alg».proof.Proof.Frame
import proofs.«138042_j24464133718914_1_alg».proof.Proof.PayloadAt
import proofs.«138042_j24464133718914_1_alg».proof.Proof.Spec
import proofs.«138042_j24464133718914_1_alg».proof.Proof.LibBlockSum
import Idealize.ShloMosaic.Lib.Pipeline.Value
import Idealize.ShloMosaic.Lib.ValueIdx
import Idealize.ShloMosaic.Lib.Tactic
import Mathlib.Algebra.BigOperators.Group.Finset.Basic
import Mathlib.Algebra.BigOperators.Fin

set_option maxRecDepth 16384

noncomputable section

namespace Cert.KernelIdeal.Den

open Cert.KernelIdeal Cert.KernelIdeal.Gen Cert.KernelIdeal.Frm
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-- The zero offsets of a whole-buffer load or store. -/
theorem hz : (![0, 0] : Fin 2 → Nat) = fun _ => 0 := funext fun a => by fin_cases a <;> rfl

/-! ## What each case's stores read back as -/

/-- A middle column tile: the accumulator's one covering store leaves the tile's row sums added to what came in. -/
theorem acc_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x256 .bf16) (xs0 : Vec F S1024x1 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S1024x256) hz, View.ld_unit_zero (S := S1024x1) hz]

/-- The first column tile: the zero column is stored, read back, and the tile's row sums are added to it. -/
theorem acc_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x256 .bf16) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x256) hz]

/-- The last column tile: the accumulator as at a middle tile. -/
theorem acc_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x256) hz, View.ld_unit_zero (S := S1024x1) hz]

/-- The last column tile: the output block gets a copy of the accumulator just stored. -/
theorem out_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x256 .bf16) (xs0 : Vec F S1024x1 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x1) _ hz]
  simp only [View.readAt_eq_ld, harg2.read_unread, harg3.read_unread, harg5.read_unread, View.ld_unit_zero (S := S1024x256) hz, View.ld_unit_zero (S := S1024x1) hz]

/-! ## The accumulation, over the extended reals -/

section AtIdeal

variable (m : (ℓ : Loc nD τ sig) → Buf (Elt Ideal) ℓ)

/-- The stacked unit rows as the region finds them (at the ideal instance a bf16 entry is an extended real). -/
def z (c : Dev nD) : FVec Ideal Cert.Contrast.SRows .f32 := fun i => V (F := Ideal) m c main_v19 i

theorem z_apply (c : Dev nD) (i : Cert.Contrast.SRows.Idx) : z m c i = V (F := Ideal) m c main_v19 i := rfl

/-- Position `p` of tile `a` of the 4096 rows cut into four tiles of 1024: row 1024 · a + p (the grid has tiles 0 to 3;
    a tile number from 4 on is never consulted). -/
def rowOf (a : ℕ) (p : Fin 1024) : Fin 4096 := if h : a < 4 then ⟨1024 * a + p.val, by omega⟩ else ⟨0, by decide⟩

theorem rowOf_val (a : ℕ) (h : a < 4) (p : Fin 1024) : (rowOf a p).val = 1024 * a + p.val := by
  unfold rowOf; rw [dif_pos h]

/-- The row tile's block and the column tile's block at point `t`, at their literal type. -/
abbrev xrow (c : Dev nD) (t : Fin cfg0.N) : Vec Ideal S1024x256 .bf16 := iblk m c 0 t
abbrev xcol (c : Dev nD) (t : Fin cfg0.N) : Vec Ideal S1024x256 .bf16 := iblk m c 1 t

/-- The printed index maps over the sixteen points: point `t` is row tile `t / 4`, column tile `t % 4`. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ (grid0.coords t 0).val = t.val / 4 ∧ (grid0.coords t 1).val = t.val % 4 :=
  (by decide +kernel : ∀ t : Fin grid0.N, _)

theorem xrow_apply (c : Dev nD) (t : Fin cfg0.N) (r : Fin 1024) (d : Fin 256) :
    xrow m c t (ix2 r d) = z m c (ix2 (rowOf (t.val / 4) r) d) := by
  have hN : t.val < 16 := lt_of_lt_of_eq t.isLt (show cfg0.N = 16 from N_0)
  unfold xrow iblk z
  rw [View.read_apply]
  show V m c main_v19 _ = V m c main_v19 _
  congr 1
  funext a
  apply Fin.ext
  match a with
  | ⟨0, _⟩ => show win0_0.index t 0 * 1024 + 1 * r.val = (rowOf (t.val / 4) r).val
              rw [rowOf_val _ (by omega), (idx_facts t).1]; omega
  | ⟨1, _⟩ => show win0_0.index t 1 * 256 + 1 * d.val = d.val
              rw [(idx_facts t).2.1]; omega

theorem xcol_apply (c : Dev nD) (t : Fin cfg0.N) (q : Fin 1024) (d : Fin 256) :
    xcol m c t (ix2 q d) = z m c (ix2 (rowOf (t.val % 4) q) d) := by
  unfold xcol iblk z
  rw [View.read_apply]
  show V m c main_v19 _ = V m c main_v19 _
  congr 1
  funext a
  apply Fin.ext
  match a with
  | ⟨0, _⟩ => show win0_1.index t 0 * 1024 + 1 * q.val = (rowOf (t.val % 4) q).val
              rw [rowOf_val _ (by omega), (idx_facts t).2.2.1]; omega
  | ⟨1, _⟩ => show win0_1.index t 1 * 256 + 1 * d.val = d.val
              rw [(idx_facts t).2.2.2.1]; omega

/-! ### One tile's contribution, and the accumulator point by point -/

/-- Row `R`'s terms over column tile `j`, summed. -/
def tileSum (zz : FVec Ideal Cert.Contrast.SRows .f32) (R : Fin 4096) (j : ℕ) : EReal :=
  ∑ cc : Fin 1024, Cert.Contrast.negTerm zz R (rowOf j cc)

/-- The body's second stored value at point `t`, row `r`: what came in plus the row's terms over the point's column tile.
    The body's diagonal test compares the two global row numbers. -/
theorem pay2_at (c : Dev nD) (t : Fin cfg0.N) (acc : Vec Ideal S1024x1 .f32) (r : Fin 1024) :
    k0_pay2 (F := Ideal) (grid0.coords t) (xrow m c t) (xcol m c t) acc (ix2 r (0 : Fin 1))
      = acc (ix2 r (0 : Fin 1)) + tileSum (z m c) (rowOf (t.val / 4) r) (t.val % 4) := by
  have hN : t.val < 16 := lt_of_lt_of_eq t.isLt (show cfg0.N = 16 from N_0)
  refine (PayAt.pay2_apply (grid0.coords t) (xrow m c t) (xcol m c t) acc r).trans ?_
  refine congrArg (acc (ix2 r (0 : Fin 1)) + ·) ?_
  unfold tileSum
  refine Finset.sum_congr rfl fun cc _ => ?_
  unfold Cert.Contrast.negTerm Cert.Contrast.sim
  have hd : ((grid0.coords t 0).val * 1024 + r.val = (grid0.coords t 1).val * 1024 + cc.val)
      ↔ rowOf (t.val / 4) r = rowOf (t.val % 4) cc := by
    rw [Fin.ext_iff, rowOf_val _ (by omega), rowOf_val _ (by omega), (idx_facts t).2.2.2.2.2.2.1, (idx_facts t).2.2.2.2.2.2.2]
    omega
  refine if_congr hd rfl ?_
  refine congrArg (fun s => Ideal.exp (s * Cert.Contrast.two)) ?_
  refine Finset.sum_congr rfl fun d _ => ?_
  rw [xrow_apply, xcol_apply]

/-- THE ACCUMULATOR after the point at position `n` (row tile `n / 4`, column tile `n % 4`), at row `r` of the tile: the
    row's terms over the column tiles 0 to `n % 4`. The first column tile starts from the zero column; every later one
    adds its tile to what the point before left. -/
theorem acc_at (c : Dev nD) (n : ℕ) : ∀ (h : n < cfg0.N) (r : Fin 1024),
    (outsAt0 m c n h).2 (ix2 r (0 : Fin 1))
      = ∑ j ∈ Finset.range (n % 4 + 1), tileSum (z m c) (rowOf (n / 4) r) j := by
  induction n using Nat.strong_induction_on with
  | _ n ih =>
    intro h r
    by_cases h0 : n % 4 = 0
    · have h1 : ¬n % 4 = 3 := by omega
      rw [outsAt0_A m c ⟨n, h⟩ h0 h1]
      dsimp only
      refine (congrFun (acc_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩)) (ix2 r (0 : Fin 1))).trans ?_
      refine (pay2_at m c ⟨n, h⟩ (k0_pay1 (F := Ideal)) r).trans ?_
      dsimp only
      rw [PayAt.pay1_apply r, zero_add, h0, Finset.sum_range_one]
    · have hn : n ≠ 0 := fun e => h0 (by rw [e])
      have e1 : (n - 1) / 4 = n / 4 := by omega
      have e2 : n % 4 = (n - 1) % 4 + 1 := by omega
      have hp := ih (n - 1) (by omega) (Nat.lt_of_le_of_lt (Nat.sub_le _ _) h) r
      by_cases h1 : n % 4 = 3
      · rw [outsAt0_C m c ⟨n, h⟩ h0 h1]
        dsimp only
        refine (congrFun (acc_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (outsAt0 m c (n - 1) (Nat.lt_of_le_of_lt (Nat.sub_le _ _) h)).2) (ix2 r (0 : Fin 1))).trans ?_
        refine (pay2_at m c ⟨n, h⟩ (outsAt0 m c (n - 1) (Nat.lt_of_le_of_lt (Nat.sub_le _ _) h)).2 r).trans ?_
        dsimp only
        rw [hp, e1, ← e2]
        exact (Finset.sum_range_succ _ _).symm
      · rw [outsAt0_B m c ⟨n, h⟩ h0 h1]
        dsimp only
        refine (congrFun (acc_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (outsAt0 m c (n - 1) (Nat.lt_of_le_of_lt (Nat.sub_le _ _) h)).2) (ix2 r (0 : Fin 1))).trans ?_
        refine (pay2_at m c ⟨n, h⟩ (outsAt0 m c (n - 1) (Nat.lt_of_le_of_lt (Nat.sub_le _ _) h)).2 r).trans ?_
        dsimp only
        rw [hp, e1, ← e2]
        exact (Finset.sum_range_succ _ _).symm

end AtIdeal

/-! ## The denominators' array after the run -/

section Final

variable (m : (ℓ : Loc nD τ sig) → Buf (Elt Ideal) ℓ)

/-- The four column tiles' sums make the row's whole denominator: the 4096 columns are the four tiles of 1024. -/
theorem tiles_eq_denRow (zz : FVec Ideal Cert.Contrast.SRows .f32) (R : Fin 4096) :
    ∑ j ∈ Finset.range 4, tileSum zz R j = Cert.Contrast.denRow zz R := by
  rw [Finset.sum_range]
  unfold tileSum Cert.Contrast.denRow
  rw [← Cert.Lib.BlockSum.sum_blocks 4 1024 4096 rfl (fun P => Cert.Contrast.negTerm zz R P)]
  refine Finset.sum_congr rfl fun j _ => Finset.sum_congr rfl fun cc _ => ?_
  refine congrArg (Cert.Contrast.negTerm zz R) (Fin.ext ?_)
  rw [rowOf_val _ j.isLt, Cert.Lib.BlockSum.blockPos_val]
  omega

/-- THE OUTPUT BLOCK at a point of the last column tile, row `r` of the tile: a copy of the accumulator, which by then
    holds all four column tiles: the row's denominator. -/
theorem out_at (c : Dev nD) (t : Fin cfg0.N) (h3 : t.val % 4 = 3) (r : Fin 1024) :
    (outsAt0 m c t.val t.isLt).1 (ix2 r (0 : Fin 1)) = Cert.Contrast.denRow (z m c) (rowOf (t.val / 4) r) := by
  have h0 : ¬t.val % 4 = 0 := by omega
  have e1 : (t.val - 1) / 4 = t.val / 4 := by omega
  have e2 : (t.val - 1) % 4 + 1 = 3 := by omega
  rw [outsAt0_C m c t h0 h3]
  dsimp only
  refine (congrFun (out_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h3) (iblk m c 0 t) (iblk m c 1 t) (outsAt0 m c (t.val - 1) (Nat.lt_of_le_of_lt (Nat.sub_le _ _) t.isLt)).2) (ix2 r (0 : Fin 1))).trans ?_
  refine (pay2_at m c t (outsAt0 m c (t.val - 1) (Nat.lt_of_le_of_lt (Nat.sub_le _ _) t.isLt)).2 r).trans ?_
  rw [acc_at m c (t.val - 1) (Nat.lt_of_le_of_lt (Nat.sub_le _ _) t.isLt) r, e1, e2, h3, ← tiles_eq_denRow]
  exact (Finset.sum_range_succ _ 3).symm

/-- What the denominators' array should end holding: row `R` at the denominator of row `R` of the stacked rows. -/
def denArr (c : Dev nD) : FVec Ideal S4096x1 .f32 := fun i => Cert.Contrast.denRow (z m c) ⟨(i 0).val, (i 0).isLt⟩

theorem denArr_apply (c : Dev nD) (R : Fin 4096) (q : Fin 1) :
    denArr m c (ix2 R q) = Cert.Contrast.denRow (z m c) R := rfl

/-- The output block at a point of the last column tile, whole: the tile's 1024 rows' denominators. -/
theorem out_block (c : Dev nD) (t : Fin cfg0.N) (h3 : t.val % 4 = 3) :
    (outsAt0 m c t.val t.isLt).1 = fun y : S1024x1.Idx => Cert.Contrast.denRow (z m c) (rowOf (t.val / 4) (y 0)) := by
  funext y
  obtain ⟨r, q, rfl⟩ : ∃ (r : Fin 1024) (q : Fin 1), y = ix2 r q := ⟨y 0, y 1, eq_ix2 y⟩
  obtain rfl : q = 0 := Subsingleton.elim _ _
  exact out_at m c t h3 r

/-- WHAT A POINT OF THE LAST COLUMN TILE WRITES BACK is its block of the denominators. -/
theorem flushed_eq (c : Dev nD) (t : Fin cfg0.N) (hf : (cfg0.win 2).flush t = true) :
    (dats (F := Ideal) m 0 c).flushed 2 t = ((cfg0.win 2).blk t).view.read (Elt Ideal) (denArr m c) := by
  have hN : t.val < 16 := lt_of_lt_of_eq t.isLt (show cfg0.N = 16 from N_0)
  have h3 : t.val % 4 = 3 := (flush0_2 t).mp hf
  show (cfg0.win 2).cut (grid0.coords t) ((dats m 0 c).after 2 t) = _
  rw [after0_2, out_block m c t h3]
  funext j
  rw [View.read_apply]
  unfold denArr
  show Cert.Contrast.denRow (z m c) (rowOf (t.val / 4) _) = Cert.Contrast.denRow (z m c) _
  refine congrArg (Cert.Contrast.denRow (z m c)) (Fin.ext ?_)
  refine (rowOf_val (t.val / 4) (by omega) _).trans ?_
  show 1024 * (t.val / 4) + (j 0).val = win0_2.index t 0 * 1024 + 1 * (j 0).val
  rw [(idx_facts t).2.2.2.2.1]; omega

/-- Row `R` of the array lies in the block written back at the last column tile of its row tile. -/
theorem mem_blk (t : Fin cfg0.N) (i : S4096x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v20).slice (win0_2.rect t)).set ↔ _
  rw [View.set_slice_whole, Rect.mem_set_unit]
  exact Iff.rfl

/-- THE DENOMINATORS' ARRAY after the run: every row at its denominator. The four write-backs (one per row tile, at its
    last column tile) tile the array. -/
theorem final_den (c : Dev nD) : (dats (F := Ideal) m 0 c).arrAt 2 cfg0.N = denArr m c :=
  (dats (F := Ideal) m 0 c).arrAt_eq_of_cover 2 (denArr m c) (flushed_eq m c) fun i => by
    have hi0 : (i 0).val < 4096 := (i 0).isLt
    have hi1 : (i 1).val < 1 := (i 1).isLt
    have hN : cfg0.N = 16 := N_0
    let t : Fin cfg0.N := ⟨4 * ((i 0).val / 1024) + 3, by omega⟩
    have htv : t.val = 4 * ((i 0).val / 1024) + 3 := rfl
    refine ⟨t, (flush0_2 t).mpr (by omega), ?_⟩
    rw [mem_blk]
    intro a
    match a with
    | ⟨0, _⟩ => show win0_2.index t 0 * 1024 ≤ (i 0).val ∧ (i 0).val < win0_2.index t 0 * 1024 + 1024
                rw [(idx_facts t).2.2.2.2.1]; omega
    | ⟨1, _⟩ => show win0_2.index t 1 * 1 ≤ (i 1).val ∧ (i 1).val < win0_2.index t 1 * 1 + 1
                rw [(idx_facts t).2.2.2.2.2.1]; omega

end Final

end Cert.KernelIdeal.Den

end
-- ==== Proof.RefDen.lean ====
/-
  The reference program's row denominators are the specification's, at the ideal values.

  Row `r` of the reference's last sum is the zero word plus, over the columns `c`, the product of the mask
  `1 - [r = c]` with `exp (s / (1/2))`, where `s` is the inner product of the unit rows `r` and `c`.  On the extended reals:
  dividing by the word of one half is multiplying by the word of two, at the infinities too; the mask is `0` on the diagonal, where
  `0 * e = 0` whatever `e` is, and `1` off it, where `1 * e = e`; and `0 + t = t`.  So the row sum is the sum over the columns of
  `0` on the diagonal and `exp (s * 2)` off it.  The unit rows themselves are never opened: they are one array `z` throughout.
-/
import proofs.«138042_j24464133718914_1_alg».proof.Proof.Spec
import proofs.«138042_j24464133718914_1_alg».proof.Proof.Gen.ReferenceIdeal.Read
import Idealize.ShloMosaic.Lib.IdealHost
import Idealize.ShloMosaic.Lib.Affine

noncomputable section

namespace Cert.ReferenceIdeal.RefValue

open Cert.ReferenceIdeal Cert.ReferenceIdeal.Read Idealize.ShloMosaic Idealize.ShloMosaic.ValueIdx

variable [Cert.ReferenceIdeal.Facts]

/-! ## The two float words of the temperature -/

/-- The word `0x3F000000` denotes one half. -/
theorem ofBits_half : Ideal.ofBits .f32 0x3F000000#32 = (((1 : ℝ) / 2 : ℝ) : EReal) := by
  simp [Ideal.ofBits, Ideal.ieee, -EReal.coe_mul]; norm_num

/-- The word `0x40000000` denotes two. -/
theorem ofBits_two : Ideal.ofBits .f32 0x40000000#32 = ((2 : ℝ) : EReal) := by
  simp [Ideal.ofBits, Ideal.ieee, -EReal.coe_mul]; norm_num

/-- Dividing by the word of one half is multiplying by the word of two, at every extended real. -/
theorem div_half (x : EReal) : Ideal.div x (Ideal.ofBits .f32 0x3F000000#32) = x * Cert.Contrast.two := by
  rw [ofBits_half, Ideal.div_coe (by norm_num)]
  show x * _ = x * Ideal.ofBits .f32 0x40000000#32
  rw [ofBits_two]; norm_num

/-! ## The mask -/

/-- Two words of numbers below `4096` are equal exactly when the numbers are. -/
theorem word_eq_iff {a b : Nat} (ha : a < 4096) (hb : b < 4096) : BitVec.ofNat 32 a = BitVec.ofNat 32 b ↔ a = b := by
  constructor
  · intro h
    have := congrArg BitVec.toNat h
    simp only [BitVec.toNat_ofNat] at this
    omega
  · intro h; rw [h]

/-- A one-bit word that is not `1` is `0`. -/
theorem bit_eq_zero_of_ne_one : ∀ c : BitVec 1, c ≠ 1#1 → c = 0#1 := by decide

/-- The identity pattern: the converted comparison of the row number with the column number is `1` on the diagonal and `0` off it. -/
theorem eye_apply (i : S4096x4096.Idx) :
    val_main_v26 (F := Ideal) i = if (i 0).val = (i 1).val then 1 else 0 := by
  rw [val_main_v26_apply, val_main_v25_apply, val_main_v24_apply, val_main_v21_apply, val_main_v23_apply, val_main_c_apply,
    val_main_v22_apply]
  have h0 : (i 0).val < 4096 := idx2_lt0 i
  have h1 : (i 1).val < 4096 := idx2_lt1 i
  have hw : IntOp.addi (BitVec.ofNat 32 (i 0).val) 0#32 = BitVec.ofNat 32 (i 1).val ↔ (i 0).val = (i 1).val := by
    unfold IntOp.addi; rw [BitVec.add_zero]; exact word_eq_iff h0 h1
  by_cases h : (i 0).val = (i 1).val
  · rw [if_pos h, IntOp.cmpi_eq.mpr (hw.mpr h)]
    show (((1#1 : BitVec 1).toNat : ℝ) : EReal) = 1
    norm_num
  · rw [if_neg h, bit_eq_zero_of_ne_one _ (fun hc => h (hw.mp (IntOp.cmpi_eq.mp hc)))]
    show (((0#1 : BitVec 1).toNat : ℝ) : EReal) = 0
    norm_num

/-- The mask `1 - eye`: `0` on the diagonal, `1` off it. -/
theorem mask_apply (i : S4096x4096.Idx) :
    val_main_v28 (F := Ideal) i = if (i 0).val = (i 1).val then 0 else 1 := by
  rw [val_main_v28_apply, val_main_v27_apply, val_main_cst_3_apply, eye_apply]
  show Ideal.ofBits .f32 0x3F800000#32 - _ = _
  rw [Ideal.ofBits_one_f32]
  by_cases h : (i 0).val = (i 1).val
  · rw [if_pos h, if_pos h]; exact EReal.sub_self (by decide) (by decide)
  · rw [if_neg h, if_neg h, sub_zero]

/-! ## The row sum -/

/-- One masked term of the reference at row `r`, column `c`, over the unit rows `z` as one array. -/
theorem term_eq (z : FVec Ideal Cert.Contrast.SRows .f32) (r c : Fin 4096) (m : EReal)
    (hm : m = if r.val = c.val then 0 else 1) :
    m * Ideal.exp (Ideal.div (∑ d : Fin 256, z (ix2 r d) * z (ix2 c d)) (Ideal.ofBits .f32 0x3F000000#32))
      = Cert.Contrast.negTerm z r c := by
  unfold Cert.Contrast.negTerm Cert.Contrast.sim
  rw [div_half, hm]
  by_cases h : r = c
  · rw [if_pos h, if_pos (congrArg Fin.val h), zero_mul]
  · rw [if_neg h, if_neg (fun hv => h (Fin.ext hv)), one_mul]

theorem ref_den (x0 x1 : (⟨S2048x256, .f32⟩ : BufTy).Contents (Elt Ideal)) (i : S4096.Idx) :
    val_main_v36 (F := Ideal) x0 x1 i = Cert.Contrast.denVec (val_main_v16 (F := Ideal) x0 x1) i := by
  rw [val_main_v36_apply, val_main_cst_6_apply]
  show Ideal.ofBits .f32 0x00000000#32 + _ = _
  rw [Ideal.ofBits_zero_f32, zero_add]
  unfold Cert.Contrast.denVec Cert.Contrast.denRow
  refine Finset.sum_congr rfl fun k _ => ?_
  rw [val_main_v35_apply, val_main_v34_apply, val_main_v33_apply, val_main_v17_apply, val_main_v32_apply, val_main_cst_5_apply]
  generalize val_main_v16 (F := Ideal) x0 x1 = z
  have el : ∀ d : Fin 256, lidx_main_v17 (idx_main_v36 i k) d = ix2 (⟨(i 0).val, (i 0).isLt⟩ : Fin 4096) d := fun d =>
    funext fun a => Fin.ext (by match a with | ⟨0, _⟩ => rfl | ⟨1, _⟩ => rfl)
  have er : ∀ d : Fin 256, ridx_main_v17 (idx_main_v36 i k) d = ix2 k d := fun d =>
    funext fun a => Fin.ext (by match a with | ⟨0, _⟩ => rfl | ⟨1, _⟩ => rfl)
  simp only [el, er]
  exact term_eq z ⟨(i 0).val, (i 0).isLt⟩ k _ (mask_apply (idx_main_v36 i k))

end Cert.ReferenceIdeal.RefValue

end
-- ==== Proof.RefPos.lean ====
/-
  THE REFERENCE'S POSITIVE PAIRS ARE THE SPECIFICATION'S.

  The reference stacks the 4096 unit rows `z` and forms the matrix of all their inner products,
  `S (r, c) = ∑ d, z (r, d) * z (c, d)`. It then reads two off-diagonals of `S` with gathers — the entries
  `(k, 2048 + k)` and the entries `(2048 + k, k)`, `k < 2048` — and joins the two vectors of 2048 end to end.
  Entry `k` of the joined vector is therefore the inner product of row `k mod 2048` of the first batch with the
  same row of the second batch: for `k < 2048` literally, and for `k ≥ 2048` with the two factors of every
  product in the other order, which a product of extended reals does not notice. That is the specification's
  `posRow` at `k`.

  The step that needs an argument is the gather. Each gather takes its 2048 index pairs from a `[2048, 2]` array of
  32-bit words whose two columns are built from an iota: `k` and `2048 + k`, each passed through the wrap of a
  negative index (add 4096 when the word is negative as a signed integer). The words here are below 4096, so they
  are non-negative as signed integers, the wrap is never taken, and clamping them into `[0, 4095]` — which the
  gather does to every start index — changes nothing.
-/
import proofs.«138042_j24464133718914_1_alg».proof.Proof.Spec
import proofs.«138042_j24464133718914_1_alg».proof.Proof.LibConcatVec
import proofs.«138042_j24464133718914_1_alg».proof.Proof.Gen.ReferenceIdeal.Read
import Idealize.ShloMosaic.Lib.ValueIdx
import Idealize.ShloMosaic.Lib.Pipeline.Value
import Mathlib.Algebra.Group.Defs
import Mathlib.Algebra.BigOperators.Group.Finset.Basic

noncomputable section

open scoped BigOperators

namespace Cert.ReferenceIdeal.RefValue2

open Cert.ReferenceIdeal Cert.ReferenceIdeal.Gen Cert.ReferenceIdeal.Read Idealize.ShloMosaic Idealize.ShloMosaic.ValueIdx

namespace Pos

/-! ## Index words below 4096 -/

/-- A word below 4096, read as a signed integer, is itself. -/
theorem toInt_ofNat_small (m : Nat) (hm : m < 4096) : (BitVec.ofNat 32 m).toInt = (m : Int) := by
  have hn : (BitVec.ofNat 32 m).toNat = m := by
    rw [BitVec.toNat_ofNat]; exact Nat.mod_eq_of_lt (by omega)
  rw [BitVec.toInt_eq_toNat_of_lt (by rw [hn]; omega), hn]

/-- So clamping it into the range of an axis of length 4096 leaves it. -/
theorem clamp_ofNat_small (m : Nat) (hm : m < 4096) : min (BitVec.ofNat 32 m).toInt.toNat 4095 = m := by
  rw [toInt_ofNat_small m hm, Int.toNat_natCast]
  omega

/-- And it is not negative, so the wrap of a negative index — take `a` (the word plus the axis length) when the
    word is below zero as a signed integer — keeps the word. -/
theorem wrap_small (m : Nat) (hm : m < 4096) (a : BitVec 32) :
    Scalar.select (IntOp.cmpi .slt (BitVec.ofNat 32 m) 0#32) a (BitVec.ofNat 32 m) = BitVec.ofNat 32 m := by
  have h : (BitVec.ofNat 32 m).slt 0#32 = false := by
    rw [BitVec.slt_eq_decide, toInt_ofNat_small m hm, BitVec.toInt_zero]
    exact decide_eq_false (by omega)
  show Scalar.select (BitVec.ofBool ((BitVec.ofNat 32 m).slt 0#32)) a _ = _
  rw [h, BitVec.ofBool_false]
  exact select_zero _ _

/-! ## The gather at an index

Operand `[4096, 4096]`, start indices `[2048, 2]` with the index vector along axis 1, both operand axes collapsed
and both named by the start index map, slices of one element: result element `k` is the operand at the pair of
words in row `k` of the start indices, each read signed and clamped into `[0, 4095]`. -/

/-- The gather's dimension numbers. -/
abbrev G : GatherDims S4096x4096 S2048x2 S2048 := gather_S4096x4096_S2048x2_S2048_n_01_n_n_01_1_11

/-- Result element `k` of the gather is the operand at `(r, c)`, where `r` and `c` are what the two words of row
    `k` of the start indices come to once read signed and clamped. -/
theorem gather_pair_at {α : Type} {w : Nat} (x : S4096x4096.Idx → α) (idx : IVec S2048x2 w) (k : Fin 2048)
    (r c : Fin 4096) (hr : min (idx (ix2 k 0)).toInt.toNat 4095 = r.val)
    (hc : min (idx (ix2 k 1)).toInt.toNat 4095 = c.val) :
    Host.gather G x idx (ix1 k) = x (ix2 r c) := by
  unfold Host.gather
  congr 1
  funext a
  refine Fin.ext ?_
  match a with
  | ⟨0, _⟩ =>
    show G.start (ix1 k) idx 0 + G.batchCoord (ix1 k) 0 + G.offCoord (ix1 k) 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ G.startIndexMap by decide)]
    have hsi : G.siIdx (ix1 k) ⟨List.idxOf (0 : Fin 2) G.startIndexMap,
        List.idxOf_lt_length_iff.2 (by decide)⟩ = ix2 k 0 := by
      funext b; refine Fin.ext ?_
      match b with
      | ⟨0, _⟩ => rfl
      | ⟨1, _⟩ => rfl
    rw [hsi]
    exact hr
  | ⟨1, _⟩ =>
    show G.start (ix1 k) idx 1 + G.batchCoord (ix1 k) 1 + G.offCoord (ix1 k) 1 = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ G.startIndexMap by decide)]
    have hsi : G.siIdx (ix1 k) ⟨List.idxOf (1 : Fin 2) G.startIndexMap,
        List.idxOf_lt_length_iff.2 (by decide)⟩ = ix2 k 1 := by
      funext b; refine Fin.ext ?_
      match b with
      | ⟨0, _⟩ => rfl
      | ⟨1, _⟩ => rfl
    rw [hsi]
    exact hc

/-! ## Two columns side by side

A `[2048, 2]` array made of two `[2048, 1]` columns joined along axis 1: column 0 is the first piece, column 1 the
second. -/

/-- Column 0 of the joined array is the first piece. -/
theorem cols_left {α : Type} (h : Shape.Concatenates [S2048x1, S2048x1] S2048x2 1) (a b : S2048x1.Idx → α)
    (k : Fin 2048) : concatenate S2048x2 1 [⟨S2048x1, a⟩, ⟨S2048x1, b⟩] h (ix2 k 0) = a (ix2 k 0) :=
  concatenate_pair_apply_left 1 a b h (ix2 k 0) rfl (ix2 k 0) fun c => by
    match c with
    | ⟨0, _⟩ => rfl
    | ⟨1, _⟩ => rfl

/-- Column 1 of the joined array is the second piece. -/
theorem cols_right {α : Type} (h : Shape.Concatenates [S2048x1, S2048x1] S2048x2 1) (a b : S2048x1.Idx → α)
    (k : Fin 2048) : concatenate S2048x2 1 [⟨S2048x1, a⟩, ⟨S2048x1, b⟩] h (ix2 k 1) = b (ix2 k 0) :=
  concatenate_pair_apply_right 1 a b h (ix2 k 1) rfl rfl (ix2 k 0)
    (fun c hc => by
      match c, hc with
      | ⟨0, _⟩, _ => rfl
      | ⟨1, _⟩, hc => exact absurd rfl hc)
    rfl

/-! ## The index pairs of the two gathers

Both are built from an iota `k` and the shifted iota `2048 + k`, each passed through the wrap of a negative index,
which keeps them. The first gather's pairs are `(k, 2048 + k)`, the second's `(2048 + k, k)`. -/

section Words
variable {F : FTy → Type} [FloatOps F]

/-- The first gather's row word: the position itself. -/
theorem call0_row (i : S2048.Idx) : val_main_call0_v8 (F := F) i = BitVec.ofNat 32 (i 0).val := by
  have hi : (i 0).val < 2048 := (i 0).isLt
  rw [val_main_call0_v8_apply, val_main_call0_v5_apply, val_main_call0_v0_apply, val_main_call0_v4_apply,
    val_main_call0_c_0_apply]
  exact wrap_small _ (by omega) _

/-- The shifted iota: 2048 plus the position. -/
theorem call0_shift (i : S2048.Idx) : val_main_call0_v3 (F := F) i = BitVec.ofNat 32 (2048 + (i 0).val) := by
  rw [val_main_call0_v3_apply, val_main_call0_v2_apply, val_main_call0_c_apply, val_main_call0_v1_apply]
  exact (BitVec.ofNat_add 2048 (i 0).val).symm

/-- The first gather's column word: 2048 plus the position. -/
theorem call0_col (i : S2048.Idx) : val_main_call0_v13 (F := F) i = BitVec.ofNat 32 (2048 + (i 0).val) := by
  have hi : (i 0).val < 2048 := (i 0).isLt
  rw [val_main_call0_v13_apply, val_main_call0_v10_apply, val_main_call0_v9_apply, val_main_call0_c_2_apply,
    call0_shift]
  exact wrap_small _ (by omega) _

/-- Row `k` of the first gather's start indices begins with `k` … -/
theorem call0_idx0 (k : Fin 2048) : val_main_call0_v16 (F := F) (ix2 k 0) = BitVec.ofNat 32 k.val := by
  unfold val_main_call0_v16
  rw [cols_left, val_main_call0_v14_apply]
  exact call0_row _

/-- … and ends with `2048 + k`. -/
theorem call0_idx1 (k : Fin 2048) : val_main_call0_v16 (F := F) (ix2 k 1) = BitVec.ofNat 32 (2048 + k.val) := by
  unfold val_main_call0_v16
  rw [cols_right, val_main_call0_v15_apply]
  exact call0_col _

/-- The second gather's shifted iota: 2048 plus the position. -/
theorem call1_shift (i : S2048.Idx) : val_main_call1_v3 (F := F) i = BitVec.ofNat 32 (2048 + (i 0).val) := by
  rw [val_main_call1_v3_apply, val_main_call1_v2_apply, val_main_call1_c_apply, val_main_call1_v1_apply]
  exact (BitVec.ofNat_add 2048 (i 0).val).symm

/-- The second gather's row word: 2048 plus the position. -/
theorem call1_row (i : S2048.Idx) : val_main_call1_v8 (F := F) i = BitVec.ofNat 32 (2048 + (i 0).val) := by
  have hi : (i 0).val < 2048 := (i 0).isLt
  rw [val_main_call1_v8_apply, val_main_call1_v5_apply, val_main_call1_v4_apply, val_main_call1_c_0_apply,
    call1_shift]
  exact wrap_small _ (by omega) _

/-- The second gather's column word: the position itself. -/
theorem call1_col (i : S2048.Idx) : val_main_call1_v13 (F := F) i = BitVec.ofNat 32 (i 0).val := by
  have hi : (i 0).val < 2048 := (i 0).isLt
  rw [val_main_call1_v13_apply, val_main_call1_v10_apply, val_main_call1_v0_apply, val_main_call1_v9_apply,
    val_main_call1_c_2_apply]
  exact wrap_small _ (by omega) _

/-- Row `k` of the second gather's start indices begins with `2048 + k` … -/
theorem call1_idx0 (k : Fin 2048) : val_main_call1_v16 (F := F) (ix2 k 0) = BitVec.ofNat 32 (2048 + k.val) := by
  unfold val_main_call1_v16
  rw [cols_left, val_main_call1_v14_apply]
  exact call1_row _

/-- … and ends with `k`. -/
theorem call1_idx1 (k : Fin 2048) : val_main_call1_v16 (F := F) (ix2 k 1) = BitVec.ofNat 32 k.val := by
  unfold val_main_call1_v16
  rw [cols_right, val_main_call1_v15_apply]
  exact call1_col _

end Words

/-! ## The matrix of inner products, and its two off-diagonals -/

/-- Entry `(r, c)` of the product of the stacked rows with their transpose is the inner product of rows `r` and
    `c`. -/
theorem prod_apply (x0 x1 : (⟨S2048x256, .f32⟩ : BufTy).Contents (Elt Ideal)) (r c : Fin 4096) :
    val_main_v17 (F := Ideal) x0 x1 (ix2 r c)
      = ∑ d : Fin 256, val_main_v16 (F := Ideal) x0 x1 (ix2 r d) * val_main_v16 (F := Ideal) x0 x1 (ix2 c d) := by
  rw [val_main_v17_apply]
  refine Finset.sum_congr rfl fun d _ => ?_
  have hl : lidx_main_v17 (ix2 r c) d = ix2 r d := funext fun a => by
    match a with
    | ⟨0, _⟩ => rfl
    | ⟨1, _⟩ => rfl
  have hr : ridx_main_v17 (ix2 r c) d = ix2 c d := funext fun a => by
    match a with
    | ⟨0, _⟩ => rfl
    | ⟨1, _⟩ => rfl
  rw [hl, hr]

/-- The first gather reads the entries `(k, 2048 + k)`. -/
theorem upper_apply (x0 x1 : (⟨S2048x256, .f32⟩ : BufTy).Contents (Elt Ideal)) (k : Fin 2048) :
    val_main_v18 (F := Ideal) x0 x1 (ix1 k)
      = val_main_v17 (F := Ideal) x0 x1
          (ix2 (⟨k.val, by have := k.isLt; omega⟩ : Fin 4096) (⟨2048 + k.val, by have := k.isLt; omega⟩ : Fin 4096)) := by
  have hk := k.isLt
  unfold val_main_v18
  exact gather_pair_at _ _ k _ _
    (by rw [call0_idx0]; exact clamp_ofNat_small _ (by omega))
    (by rw [call0_idx1]; exact clamp_ofNat_small _ (by omega))

/-- The second gather reads the entries `(2048 + k, k)`. -/
theorem lower_apply (x0 x1 : (⟨S2048x256, .f32⟩ : BufTy).Contents (Elt Ideal)) (k : Fin 2048) :
    val_main_v19 (F := Ideal) x0 x1 (ix1 k)
      = val_main_v17 (F := Ideal) x0 x1
          (ix2 (⟨2048 + k.val, by have := k.isLt; omega⟩ : Fin 4096) (⟨k.val, by have := k.isLt; omega⟩ : Fin 4096)) := by
  have hk := k.isLt
  unfold val_main_v19
  exact gather_pair_at _ _ k _ _
    (by rw [call1_idx0]; exact clamp_ofNat_small _ (by omega))
    (by rw [call1_idx1]; exact clamp_ofNat_small _ (by omega))

end Pos

open Pos

/-! ## The joined vector is the specification's positive pairs -/

/-- THE REFERENCE'S POSITIVE PAIRS: entry `k` of the two off-diagonals joined end to end is the inner product of row
    `k mod 2048` of the first batch with the same row of the second. Below 2048 it is the entry `(k, 2048 + k)`; from
    2048 on, with `k' = k - 2048`, it is the entry `(2048 + k', k')`, the same products with their factors
    exchanged. -/
theorem ref_pos (x0 x1 : (⟨S2048x256, .f32⟩ : BufTy).Contents (Elt Ideal)) (i : S4096.Idx) :
    val_main_v20 (F := Ideal) x0 x1 i = Cert.Contrast.posVec (val_main_v16 (F := Ideal) x0 x1) i := by
  obtain ⟨k, rfl⟩ : ∃ k : Fin 4096, i = ix1 k := ⟨i 0, eq_ix1 i⟩
  have hk : k.val < 4096 := k.isLt
  have hpos : Cert.Contrast.posVec (val_main_v16 (F := Ideal) x0 x1) (ix1 k)
      = ∑ d : Fin 256, val_main_v16 (F := Ideal) x0 x1 (ix2 (Cert.Contrast.lo k) d)
          * val_main_v16 (F := Ideal) x0 x1 (ix2 (Cert.Contrast.hi k) d) := rfl
  rw [hpos]
  unfold val_main_v20
  by_cases h : k.val < 2048
  · have hlo : Cert.Contrast.lo k = ⟨k.val, by omega⟩ := Fin.ext (Nat.mod_eq_of_lt h)
    have hhi : Cert.Contrast.hi k = ⟨2048 + k.val, by omega⟩ :=
      Fin.ext (by show k.val % 2048 + 2048 = 2048 + k.val; omega)
    rw [ConcatVec.concat_vec_left concatenates_S2048_S2048_S4096_d0 _ _ k h, upper_apply, prod_apply, hlo, hhi]
  · have h' : 2048 ≤ k.val := Nat.le_of_not_lt h
    have hlo : Cert.Contrast.lo k = ⟨k.val - 2048, by omega⟩ :=
      Fin.ext (by show k.val % 2048 = k.val - 2048; omega)
    have hhi : Cert.Contrast.hi k = ⟨2048 + (k.val - 2048), by omega⟩ :=
      Fin.ext (by show k.val % 2048 + 2048 = 2048 + (k.val - 2048); omega)
    rw [ConcatVec.concat_vec_right concatenates_S2048_S2048_S4096_d0 _ _ k h', lower_apply, prod_apply, hlo, hhi]
    exact Finset.sum_congr rfl fun d _ => mul_comm _ _

end Cert.ReferenceIdeal.RefValue2

end
-- ==== Proof.Assemble.lean ====
/-
  The five claims.  Both programs normalise the two batches of embeddings row by row and stack them into the 4096 unit
  rows `z`; both end with the same last lines, `mean (-log (exp (pos / (1/2)) / den))`; so the results are equal once the
  positive pairs and the denominators are.  The kernel program's positive pairs are the row sums of the product of the
  two normalised batches, laid out twice; the reference's are two off-diagonals of `z zᵀ`, equal to them by the
  commutativity of the product.  The kernel's denominators are accumulated tile by tile with the diagonal entries
  replaced by zero; the reference's are the row sums of `(1 - eye) ⊙ exp (z zᵀ / (1/2))`; equal term by term, and as sums
  by regrouping the columns into the four tiles.  Every law used holds at every extended real, so the precondition is
  not opened.
-/
import proofs.«138042_j24464133718914_1_alg».proof.Defs
import proofs.«138042_j24464133718914_1_alg».proof.Proof.Gen.Kernel
import proofs.«138042_j24464133718914_1_alg».proof.Proof.Gen.KernelIdeal
import proofs.«138042_j24464133718914_1_alg».proof.Proof.Gen.ReferenceIdeal
import proofs.«138042_j24464133718914_1_alg».proof.Proof.Gen.Pre_finite_inputs
import proofs.«138042_j24464133718914_1_alg».proof.Proof.Gen.ReferenceIdeal.Run
import proofs.«138042_j24464133718914_1_alg».proof.Proof.Gen.ReferenceIdeal.Read
import proofs.«138042_j24464133718914_1_alg».proof.Proof.Frame
import proofs.«138042_j24464133718914_1_alg».proof.Proof.BitsFrame
import proofs.«138042_j24464133718914_1_alg».proof.Proof.HostSides
import proofs.«138042_j24464133718914_1_alg».proof.Proof.KernelPos
import proofs.«138042_j24464133718914_1_alg».proof.Proof.KernelDen
import proofs.«138042_j24464133718914_1_alg».proof.Proof.RefDen
import proofs.«138042_j24464133718914_1_alg».proof.Proof.RefPos

noncomputable section

namespace Cert.Proof.Parts

open Idealize.ShloMosaic Idealize.ShloMosaic.TcCoe Idealize.SL.Sem Idealize.ShloMosaic.ValueIdx

/-! ## The frames -/

theorem frame_p : Cert.frame_Kernel := fun m ρ _ => Cert.Kernel.Frm.frame (F := Bits) m ρ
theorem frame_pi : Cert.frame_KernelIdeal := fun m ρ _ => Cert.KernelIdeal.Frm.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The kernel program's result -/

section KernelSide

open Cert.KernelIdeal Cert.KernelIdeal.Gen Cert.KernelIdeal.Frm

variable (m : (ℓ : Loc Cert.KernelIdeal.nD Cert.KernelIdeal.τ Cert.KernelIdeal.sig) → Buf (Elt Ideal) ℓ)

/-- The stacked unit rows as the kernel program computes them from its two arguments. -/
abbrev zK (c : Dev Cert.KernelIdeal.nD) : FVec Ideal Cert.Contrast.SRows .f32 :=
  Cert.KernelIdeal.Host.rowsK (Cert.KernelIdeal.Host.nrm (Cert.KernelIdeal.Host.x0 m c)) (Cert.KernelIdeal.Host.nrm (Cert.KernelIdeal.Host.x1 m c))

/-- The rows the kernel's windows stage are those rows (narrowing to bf16 changes nothing over the extended reals). -/
theorem staged_rows (c : Dev Cert.KernelIdeal.nD) : Cert.KernelIdeal.Den.z m c = zK m c :=
  funext fun i => (Cert.KernelIdeal.Den.z_apply m c i).trans (Cert.KernelIdeal.Host.V_v19 m c i)

/-- The positive pairs laid out twice are the specification's. -/
theorem kernel_pos (c : Dev Cert.KernelIdeal.nD) :
    (concatenate S4096 0 [⟨S2048, V (F := Ideal) m c main_v17⟩, ⟨S2048, V (F := Ideal) m c main_v17⟩] concatenates_S2048_S2048_S4096_d0 : FVec Ideal S4096 .f32)
      = Cert.Contrast.posVec (zK m c) := by
  rw [Cert.KernelIdeal.Host.V_v17 m c]
  exact funext fun i => Cert.KernelIdeal.Pos.pos_eq _ _ i

/-- The denominators' array, reshaped to a vector, is the specification's. -/
theorem kernel_den (c : Dev Cert.KernelIdeal.nD) :
    (shapeCast S4096 ((dats (F := Ideal) m 0 c).arrAt 2 cfg0.N) shapeCasts_S4096x1_S4096 : FVec Ideal S4096 .f32)
      = Cert.Contrast.denVec (zK m c) := by
  rw [Cert.KernelIdeal.Den.final_den m c]
  funext i
  rw [shapeCast_apply _ shapeCasts_S4096x1_S4096 i (ix2 ⟨(i 0).val, (i 0).isLt⟩ (0 : Fin 1))
    (by rw [Shape.rowMajor_val_two, Shape.rowMajor_val_one]; show (i 0).val * 1 + 0 = (i 0).val; omega)]
  unfold Cert.KernelIdeal.Den.denArr Cert.Contrast.denVec
  rw [staged_rows m c]

/-- What the operations after the region leave in the result buffer. -/
theorem kernel_value (c : Dev Cert.KernelIdeal.nD) :
    StableHlo.after ([hostOps1] : List (List (HloOp τ sig (Elt Ideal)))).flatten (Vx m c) (Proc.devRef .tc main_v30)
      = Cert.Contrast.lossTail bcast_S_S4096 reducesTo_S4096_S_d0 h_S_ (Cert.Contrast.posVec (zK m c)) (Cert.Contrast.denVec (zK m c)) := by
  rw [Cert.KernelIdeal.Host.tail_eq m c, kernel_pos m c, kernel_den m c]

/-- An argument array is no window's array, and no operation after the region writes it. -/
theorem kernel_args (c : Dev Cert.KernelIdeal.nD) :
    StableHlo.after ([hostOps1] : List (List (HloOp τ sig (Elt Ideal)))).flatten (Vx m c) (Proc.devRef .tc main_arg0) = m ((c.tc : Thread nD τ).loc main_arg0)
    ∧ StableHlo.after ([hostOps1] : List (List (HloOp τ sig (Elt Ideal)))).flatten (Vx m c) (Proc.devRef .tc main_arg1) = m ((c.tc : Thread nD τ).loc main_arg1) := by
  constructor
  · rw [StableHlo.after_of_forall_not_mem _ _ fun op hop => (tail_keeps_args op hop).1, Vx_of_ne m c main_arg0 (by decide)]
    exact V_main_arg0 m c
  · rw [StableHlo.after_of_forall_not_mem _ _ fun op hop => (tail_keeps_args op hop).2, Vx_of_ne m c main_arg1 (by decide)]
    exact V_main_arg1 m c

end KernelSide

/-! ## The reference's result -/

section ReferenceSide

open Cert.ReferenceIdeal Cert.ReferenceIdeal.Gen Cert.ReferenceIdeal.Read

/-- The reference's last lines are the shared tail of its own positive pairs and denominators. -/
theorem ref_tail (x0 x1 : (⟨S2048x256, .f32⟩ : BufTy).Contents (Elt Ideal)) :
    val_main_v41 (F := Ideal) x0 x1
      = Cert.Contrast.lossTail bcast_S_S4096 reducesTo_S4096_S_d0 h_S_ (val_main_v20 (F := Ideal) x0 x1) (val_main_v36 (F := Ideal) x0 x1) := by
  unfold Cert.Contrast.lossTail val_main_v41 val_main_v40 val_main_v39 val_main_v38 val_main_v37 val_main_v31 val_main_v30 val_main_v29 val_main_cst_4 val_main_cst_7 val_main_cst_8
  rfl

/-- and so the specification's loss of the reference's stacked rows. -/
theorem ref_value (x0 x1 : (⟨S2048x256, .f32⟩ : BufTy).Contents (Elt Ideal)) :
    val_main_v41 (F := Ideal) x0 x1
      = Cert.Contrast.lossTail bcast_S_S4096 reducesTo_S4096_S_d0 h_S_
          (Cert.Contrast.posVec (val_main_v16 (F := Ideal) x0 x1)) (Cert.Contrast.denVec (val_main_v16 (F := Ideal) x0 x1)) := by
  rw [ref_tail, funext (Cert.ReferenceIdeal.RefValue2.ref_pos x0 x1), funext (Cert.ReferenceIdeal.RefValue.ref_den x0 x1)]

/-- Both programs stack the same rows: the same operations on the same arguments. -/
theorem rows_eq (x0 x1 : (⟨S2048x256, .f32⟩ : BufTy).Contents (Elt Ideal)) :
    val_main_v16 (F := Ideal) x0 x1 = Cert.KernelIdeal.Host.rowsK (Cert.KernelIdeal.Host.nrm x0) (Cert.KernelIdeal.Host.nrm x1) := by
  unfold val_main_v16 val_main_v15 val_main_v14 val_main_v13 val_main_v12 val_main_cst_2 val_main_v11 val_main_v10 val_main_v9 val_main_cst_1 val_main_v8
    val_main_v7 val_main_v6 val_main_v5 val_main_v4 val_main_cst_0 val_main_v3 val_main_v2 val_main_v1 val_main_cst val_main_v0
    Cert.KernelIdeal.Host.rowsK Cert.KernelIdeal.Host.nrm
  rfl

end ReferenceSide

/-! ## The two programs agree -/

theorem algebraic : Cert.algebraic_KernelIdeal_ReferenceIdeal := by
  intro m ρ m' ρ' _ hagree
  refine ⟨fun c => Cert.Contrast.lossTail Cert.KernelIdeal.Gen.bcast_S_S4096 Cert.KernelIdeal.Gen.reducesTo_S4096_S_d0 Cert.KernelIdeal.Gen.h_S_
      (Cert.Contrast.posVec (zK m c)) (Cert.Contrast.denVec (zK m c)), ?_, ?_⟩
  · refine (θ_run Cert.KernelIdeal.defs _ _).mono (fun r h c => ?_) (Cert.KernelIdeal.Frm.run_main (F := Ideal) m ρ)
    refine ⟨((h c).2 Cert.KernelIdeal.main_v30 (by decide)).trans (kernel_value m c),
      ((h c).2 Cert.KernelIdeal.main_arg0 (by decide)).trans (kernel_args m c).1,
      ((h c).2 Cert.KernelIdeal.main_arg1 (by decide)).trans (kernel_args m c).2⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v41_eq, ref_value, rows_eq, (hagree c).1, (hagree c).2]

end Cert.Proof.Parts

end
-- ==== Proof.lean ====
/-
  The certificate of the contrastive (InfoNCE) loss kernel against its jnp reference: the three frames, the idealization
  (nothing was rewritten), and the equality of the two idealized programs' results over the extended reals.

  The kernel program normalises the two batches of 2048 embeddings row by row, stacks them into 4096 unit rows, and runs
  one fused kernel over a 4 × 4 grid of 1024-row tiles: each point forms the tile of inner products, doubles and
  exponentiates it, replaces the entries on the global diagonal by zero, and adds the row sums into an accumulator that is
  cleared at the first column tile and written out at the last: each row's denominator.  The reference forms the whole
  4096 × 4096 matrix and masks its diagonal.  Both then take the mean of `-log (exp (pos / (1/2)) / den)`.  The pieces:
  the specification (Proof/Spec.lean), the kernel's frame with one array staged by two windows (Proof/FrameKit.lean,
  RunA/B/C.lean, Frame.lean, and their word-level counterparts), the kernel's values (PayloadAt, KernelDen, KernelPos,
  HostSides), the reference's (RefDen, RefPos), and the claims (Proof/Assemble.lean).
-/
import proofs.«138042_j24464133718914_1_alg».proof.Defs
import proofs.«138042_j24464133718914_1_alg».proof.Proof.Gen.Kernel
import proofs.«138042_j24464133718914_1_alg».proof.Proof.Gen.Kernel.Skeleton
import proofs.«138042_j24464133718914_1_alg».proof.Proof.Gen.Kernel.Launch
import proofs.«138042_j24464133718914_1_alg».proof.Proof.Gen.Kernel.Points
import proofs.«138042_j24464133718914_1_alg».proof.Proof.Gen.KernelIdeal
import proofs.«138042_j24464133718914_1_alg».proof.Proof.Gen.KernelIdeal.Skeleton
import proofs.«138042_j24464133718914_1_alg».proof.Proof.Gen.KernelIdeal.Launch
import proofs.«138042_j24464133718914_1_alg».proof.Proof.Gen.KernelIdeal.Points
import proofs.«138042_j24464133718914_1_alg».proof.Proof.Gen.ReferenceIdeal
import proofs.«138042_j24464133718914_1_alg».proof.Proof.Gen.Pre_finite_inputs
import proofs.«138042_j24464133718914_1_alg».proof.Proof.Gen.ReferenceIdeal.Run
import proofs.«138042_j24464133718914_1_alg».proof.Proof.Gen.ReferenceIdeal.Read
import proofs.«138042_j24464133718914_1_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Parts.frame_p, Cert.Proof.Parts.frame_pi, Cert.Proof.Parts.frame_ri, Cert.Proof.Parts.preserves, Cert.Proof.Parts.algebraic⟩

end Cert.Proof

end
